-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S262144 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S8192x4096 : Shape := ⟨2, ![8192, 4096]⟩
abbrev S1x4096 : Shape := ⟨2, ![1, 4096]⟩
abbrev S4096x2048 : Shape := ⟨2, ![4096, 2048]⟩
abbrev S4096x64 : Shape := ⟨2, ![4096, 64]⟩
abbrev S4096x4096 : Shape := ⟨2, ![4096, 4096]⟩
abbrev S256x2048 : Shape := ⟨2, ![256, 2048]⟩
abbrev S256x64 : Shape := ⟨2, ![256, 64]⟩
abbrev S256x4096 : Shape := ⟨2, ![256, 4096]⟩
abbrev S256x2048x1 : Shape := ⟨3, ![256, 2048, 1]⟩
abbrev S256x2048x2 : Shape := ⟨3, ![256, 2048, 2]⟩
abbrev S64x4096 : Shape := ⟨2, ![64, 4096]⟩
abbrev S256x512 : Shape := ⟨2, ![256, 512]⟩
abbrev S512x4096 : Shape := ⟨2, ![512, 4096]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S4096x2048, .i32⟩
  | .hbm, ⟨7, _⟩ => ⟨S4096x64, .f32⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x64, .f32⟩
  | .local _ .vmem, ⟨3, _⟩ => ⟨S256x64, .f32⟩
  | .local _ .vmem, ⟨4, _⟩ => ⟨S256x4096, .bf16⟩
  | .local _ .vmem, ⟨5, _⟩ => ⟨S256x4096, .bf16⟩
  | .local _ .vmem, ⟨6, _⟩ => ⟨S256x512, .f32⟩
  | .local _ .vmem, ⟨7, _⟩ => ⟨S256x512, .f32⟩
  | .local _ .vmem, ⟨8, _⟩ => ⟨S512x4096, .bf16⟩
  | .local _ .vmem, ⟨9, _⟩ => ⟨S512x4096, .bf16⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x4096_S8192x4096 : S4x2048x4096.ShapeCasts S8192x4096
  shapeCasts_S4096_S1x4096 : S4096.ShapeCasts S1x4096
  shapeCasts_S8388608_S4096x2048 : S8388608.ShapeCasts S4096x2048
  shapeCasts_S262144_S4096x64 : S262144.ShapeCasts S4096x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S256x2048_S256x2048x1 : S256x2048.ShapeCasts S256x2048x1
  concatenates_S256x2048x1_S256x2048x1_S256x2048x2_d2 : Shape.Concatenates [S256x2048x1, S256x2048x1] S256x2048x2 2
  shapeCasts_S256x2048x2_S256x4096 : S256x2048x2.ShapeCasts S256x4096
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S64x4096_d0_w32 : S64x4096.Iotas .tc 32 [0]
  iota_S64x4096_d1_w32 : S64x4096.Iotas .tc 32 [1]
  natLt_1_32 : 1 < 32
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x64_S64x4096_S256x4096_1_0_0_1_n_n_wf : DotDims.WF S256x64 S64x4096 S256x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x4096.size a
  hwx1_0 : ∀ i : grid1.Coords, EltTy.bits .f32 = 32 ∨ (Rect.block (s := S8192x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S16 : Shape := ⟨1, ![16]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S262144x64 : Shape := ⟨2, ![262144, 64]⟩
abbrev S262144x1 : Shape := ⟨2, ![262144, 1]⟩
abbrev S4096x4096 : Shape := ⟨2, ![4096, 4096]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .i32⟩
  | .hbm, ⟨25, _⟩ => ⟨S16777216x1, .i32⟩
  | .hbm, ⟨26, _⟩ => ⟨S16777216, .f32⟩
  | .hbm, ⟨27, _⟩ => ⟨S262144x64, .f32⟩
  | .hbm, ⟨28, _⟩ => ⟨S262144x1, .f32⟩
  | .hbm, ⟨29, _⟩ => ⟨S262144x64, .f32⟩
  | .hbm, ⟨30, _⟩ => ⟨S262144x64, .f32⟩
  | .hbm, ⟨31, _⟩ => ⟨S4096x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S16777216x1_S16777216_n_0_n_n_0_1_1_wf : GatherDims.WF S16 S16777216x1 S16777216 [] [0] [] [0] [] 1 ![1]
  dot_S4x2048x4096_S4096x4096_S4x2048x4096_2_0_01_1_n_n_wf : DotDims.WF S4x2048x4096 S4096x4096 S4x2048x4096 [2] [0] [0, 1] [1] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.KB.Defs0.lean ====
/-
  Region 0 (the dequantization call), the data its frame is stated over, at any float instance and at any
  contents `V` of the core's buffers when the region is entered: each window's block at a grid point, what the
  body leaves in the output block as one function `deq0` of the two input blocks (the packed words' block and
  the scales' block), and the pipeline's proof data built from them.
-/
import proofs.«402447_j56581899157525_3_alg».proof.Proof.Gen.Kernel.Launch
import proofs.«402447_j56581899157525_3_alg».proof.Proof.Gen.Kernel.Skeleton
import proofs.«402447_j56581899157525_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-block rectangles the body loads and stores through. -/
abbrev r0_q : Rect S256x2048 := Rect.unit (s := S256x2048) ![0, 0] S256x2048.size inb_S256x2048_S256x2048_0_0
abbrev r0_s : Rect S256x64 := Rect.unit (s := S256x64) ![0, 0] S256x64.size inb_S256x64_S256x64_0_0
abbrev r0_w : Rect S256x4096 := Rect.unit (s := S256x4096) ![0, 0] S256x4096.size inb_S256x4096_S256x4096_0_0

/-- The body's arithmetic as one function of its two loads: the 256×2048 block of packed words `v0` and the
    256×64 block of scales `v106` give the 256×4096 block of dequantized weights (the payloads of the three
    parts of the body composed in the order the body calls them). -/
def deq0 (v0 : Vec F S256x2048 .i32) (v106 : Vec F S256x64 .f32) : FVec F S256x4096 .bf16 :=
  k0_pay1
    (k0_pay20
      (k0_pay13 (k0_pay5 v0) (k0_pay6 v0) (k0_pay7 v0) (k0_pay8 v0) (k0_pay9 v0) (k0_pay10 v0) (k0_pay11 v0) (k0_pay12 v0)
        (Scalar.ofBits .f32 0x3E24CAE3#32) (Scalar.ofBits .f32 0x3DA2FAFF#32))
      (k0_pay14 (k0_pay4 v0)) (k0_pay15 (k0_pay4 v0)) (k0_pay16 (k0_pay4 v0)) (k0_pay17 (k0_pay4 v0))
      (k0_pay18 (k0_pay4 v0)) (k0_pay19 (k0_pay4 v0)) (Scalar.ofBits .f32 0xBE3D353F#32))
    (k0_pay21 v106)
    (iota .tc S64x4096 32 [0] iota_S64x4096_d0_w32) (iota .tc S64x4096 32 [1] iota_S64x4096_d1_w32)
    64#32 k0_pay22 k0_pay23 (Scalar.cmpi .sgt 64#32 0#32)

/-- What the body leaves in the output window's staging buffer: its one store, of `deq0` of the two loads. -/
def out0_2 (x0 : Vec F S256x2048 .i32) (x1 : Vec F S256x64 .f32) : Vec F S256x4096 .bf16 :=
  View.canon [⟨r0_w, deq0 (View.ld x0 r0_q) (View.ld x1 r0_s)⟩]

/-- The proof data of pipeline 0 on core `c`: the arrays as the region finds them; after the body at point `t`
    each input's buffer at its block, the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.KB.R0.lean ====
/-
  Region 0: the body of the dequantization call at a grid point, run on the staging buffers the pipeline hands it,
  leaves the two input buffers as it found them and the output buffer at `out0_2` of the input blocks.
-/
import proofs.«402447_j56581899157525_3_alg».proof.Proof.KB.Defs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output's one store is of the whole block, so it covers the buffer. -/
theorem cover0_2 (p0 : Vec F S256x4096 .bf16) (y : S256x4096.Idx) :
    ∃ pc ∈ ([⟨r0_w, p0⟩] : List (View.Piece (Elt F) S256x4096 .bf16)), y ∈ pc.1.set :=
  View.cover_of_tiled [⟨r0_w, p0⟩] S256x4096.size (by rfl) y

set_option maxHeartbeats 1000000 in
/-- The kernel body on whole staging memrefs, the two inputs' at contents `x0`, `x1` and the output's at anything,
    runs to the continuation holding the inputs' as they were and the output's at `out0_2 x0 x1`. -/
theorem sound_kernel0 (c : Dev nD) (E : Set ℕ) (i : grid0.Coords) (arg1 : Memref sig .tc .vmem S256x2048 .i32) (harg1 : arg1.IsWhole)
    (arg2 : Memref sig .tc .vmem S256x64 .f32) (harg2 : arg2.IsWhole) (arg3 : Memref sig .tc .vmem S256x4096 .bf16) (harg3 : arg3.IsWhole)
    (x0 : Vec F S256x2048 .i32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Defs1.lean ====
/-
  Region 1 (the tiled matrix product with its accumulator), the data its frame is stated over, at any float
  instance and at any contents `V` of the core's buffers when the region is entered. Grid point `n = 8·i + k`
  works on row tile `i` and contraction tile `k`. The accumulator after point `n` is `scrAt n`: the tile product
  added to zero at `k = 0` and to what the point before left otherwise; the output block is the accumulator plus
  the bias row, stored at `k = 7` only. The region's invariant carries the accumulator between points.
-/
import proofs.«402447_j56581899157525_3_alg».proof.Proof.Gen.Kernel.Launch
import proofs.«402447_j56581899157525_3_alg».proof.Proof.Gen.Kernel.Skeleton
import proofs.«402447_j56581899157525_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at a point, at their literal types: the 256×512 tile of the activations, the
    512×4096 tile of the weights, the 1×4096 bias row. -/
def xblk (c : Dev nD) (t : Fin cfg1.N) : Vec F S256x512 .f32 := iblk1 V c 0 t
def wblk (c : Dev nD) (t : Fin cfg1.N) : Vec F S512x4096 .bf16 := iblk1 V c 1 t
def bblk (c : Dev nD) (t : Fin cfg1.N) : Vec F S1x4096 .f32 := iblk1 V c 2 t

/-- The accumulator after the body at position `n`: at the first contraction tile (`n % 8 = 0`) the tile product
    added to the zero block, otherwise added to what position `n - 1` left. -/
def scrAt (c : Dev nD) : (n : ℕ) → n < cfg1.N → Vec F S256x4096 .f32
  | 0, h => k1_pay2 (xblk V c ⟨0, h⟩) (k1_pay1 (F := F)) (wblk V c ⟨0, h⟩)
  | n + 1, h =>
    if (n + 1) % 8 = 0 then k1_pay2 (xblk V c ⟨n + 1, h⟩) (k1_pay1 (F := F)) (wblk V c ⟨n + 1, h⟩)
    else k1_pay2 (xblk V c ⟨n + 1, h⟩) (scrAt c n (Nat.lt_of_succ_lt h)) (wblk V c ⟨n + 1, h⟩)

theorem scrAt_first (c : Dev nD) (n : ℕ) (h : n < cfg1.N) (h0 : n % 8 = 0) :
    scrAt V c n h = k1_pay2 (xblk V c ⟨n, h⟩) (k1_pay1 (F := F)) (wblk V c ⟨n, h⟩) := by
  cases n with
  | zero => rfl
  | succ n => exact if_pos h0

theorem scrAt_next (c : Dev nD) (n : ℕ) (h : n < cfg1.N) (h0 : n % 8 ≠ 0) :
    scrAt V c n h = k1_pay2 (xblk V c ⟨n, h⟩) (scrAt V c (n - 1) (Nat.lt_of_le_of_lt (Nat.sub_le _ _) h)) (wblk V c ⟨n, h⟩) := by
  cases n with
  | zero => exact absurd (Nat.zero_mod _) h0
  | succ n => exact if_neg h0

/-- The output block the body stores at the last contraction tile: the accumulator plus the bias row. -/
def outAt (c : Dev nD) (n : ℕ) (h : n < cfg1.N) : Vec F S256x4096 .f32 :=
  k1_pay3 (scrAt V c n h) (bblk V c ⟨n, h⟩)

/-- The accumulator: a whole scoped buffer of the kernel's own. -/
abbrev scM1 : Memref sig .tc .vmem S256x4096 .f32 := Memref.whole cc1_scratch0

/-- The core's scoped buffers that region 1 neither stages nor uses (region 0's staging buffers), each whole at
    some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point what the launch hands the region (every
    scoped buffer the region does not stage at some contents, the generator register at some state); afterwards
    the same with the accumulator at what the point before left in it. -/
def PhiS1 (c : Dev nD) : (n : ℕ) → n ≤ cfg1.N → sProp 𝕄
  | 0, _ => Pipeline.ΦA spec1 c
  | n + 1, hn => iprop(restS1 c ∗ owns (c : Thread nD τ) scM1 fullShare (scrAt V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restS1 c ∗ owns (c : Thread nD τ) scM1 fullShare (scrAt V c n hn) ∗ (∃ r, prngReg c r)) := rfl

theorem PhiS1_pos (c : Dev nD) (n : ℕ) (h : n ≤ cfg1.N) (hz : n ≠ 0) :
    PhiS1 V c n h = iprop(restS1 c ∗ owns (c : Thread nD τ) scM1 fullShare (scrAt V c (n - 1) (by omega)) ∗ (∃ r, prngReg c r)) := by
  cases n with
  | zero => exact absurd rfl hz
  | succ n => rfl

/-- The proof data of pipeline 1 on core `c`: the arrays as the region finds them; after the body at point `t`
    each input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.KB.R1.lean ====
/-
  Region 1: the body of the matrix-product call at a grid point. At the first contraction tile it clears the
  accumulator, at every tile it adds the tile product to it, at the last tile it stores accumulator plus bias into
  the output buffer; elsewhere the output buffer is handed back untouched.
-/
import proofs.«402447_j56581899157525_3_alg».proof.Proof.KB.Defs1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test, from the grid coordinates: the contraction tile is the first. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the contraction tile is the last. -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a whole-block access, however spelt. -/
theorem hz2 : (![0, 0] : Fin 2 → Nat) = fun _ => 0 := by
  funext a; match a with | ⟨0, _⟩ => rfl | ⟨1, _⟩ => rfl

/-! ## The body run once per control case

The body on any whole buffers: the three inputs at their blocks are handed back as found; the accumulator ends at
the tile product added to the zero block (first contraction tile) or to what it held (the other tiles); at the
last contraction tile the output buffer ends at the accumulator plus the bias row, elsewhere it is handed back as
found. -/

set_option maxHeartbeats 1000000 in
/-- First contraction tile: the accumulator, whatever it held, is cleared and then receives the tile product. -/
theorem runA (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : cond1_0 i) (hc1 : ¬cond1_1 i)
    (x0 : Vec F S256x512 .f32) (x1 : Vec F S512x4096 .bf16) (x2 : Vec F S1x4096 .f32) (xi3 : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 (k1_pay1 (F := F)) x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, View.ld_unit_zero (S := S256x512) hz2,
    View.ld_unit_zero (S := S512x4096) hz2, View.readCov_unit_zero (S := S256x4096) _ hz2]

set_option maxHeartbeats 1000000 in
/-- A middle contraction tile: the accumulator at known contents receives the tile product on top of them. -/
theorem runB (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : ¬cond1_0 i) (hc1 : ¬cond1_1 i)
    (x0 : Vec F S256x512 .f32) (x1 : Vec F S512x4096 .bf16) (x2 : Vec F S1x4096 .f32) (xi3 : Vec F S256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 xs x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, harg6.read_unread, View.ld_unit_zero (S := S256x512) hz2,
    View.ld_unit_zero (S := S512x4096) hz2, View.ld_unit_zero (S := S256x4096) hz2]

set_option maxHeartbeats 1000000 in
/-- Last contraction tile: as a middle tile, and then the output buffer, whatever it held, receives the accumulator
    plus the bias row. -/
theorem runC (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : ¬cond1_0 i) (hc1 : cond1_1 i)
    (x0 : Vec F S256x512 .f32) (x1 : Vec F S512x4096 .bf16) (x2 : Vec F S1x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 xs x1) x2) ∗ owns (c : Thread nD τ) arg6 fullShare (k1_pay2 x0 xs x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero hz2 inb_S256x4096_S256x4096_0_0 y⟩)]
    rw [View.canon_cons_unit_zero hz2]
    simp only [View.readAt_eq_ld, harg2.read_unread, harg3.read_unread, harg4.read_unread, harg6.read_unread, View.ld_unit_zero (S := S256x512) hz2,
      View.ld_unit_zero (S := S512x4096) hz2, View.ld_unit_zero (S := S256x4096) hz2, View.ld_unit_zero (S := S1x4096) hz2,
      View.readCov_unit_zero (S := S256x4096) _ hz2]
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, harg6.read_unread, View.ld_unit_zero (S := S256x512) hz2,
    View.ld_unit_zero (S := S512x4096) hz2, View.ld_unit_zero (S := S256x4096) hz2]

variable (V : (c : Dev nD) → (b : Ref sig .tc) → Buf (Elt F) ((c : Thread nD τ).loc b))

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last contraction tile the output is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at it, the output is live. -/
theorem liveAt1_3 : ∀ t : Fin cfg1.N, cond1_1 (grid1.coords t) → cfg1.idle 3 (grid1.coords t) = false := by decide +kernel

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The bias row is fetched at the first point only; its block index never moves, so the buffer still holds it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The launch's invariant with the accumulator singled out -/

/-- What the launch hands the region: region 0's six staging buffers at anything, the accumulator at anything, the
    generator register at some state. -/
theorem PhiA1_eq (c : Dev nD) :
    (Pipeline.ΦA spec1 c : sProp 𝕄)
      = iprop(restS1 (F := F) c ∗ (∃ d, owns (c : Thread nD τ) scM1 fullShare d) ∗ (∃ r, prngReg c r)) := by
  have h₁ : (Pipeline.ΦA spec1 c : sProp 𝕄) ⊢ iprop(restS1 (F := F) c ∗ (∃ d, owns (c : Thread nD τ) scM1 fullShare d) ∗ (∃ r, prngReg c r)) := by
    unfold Pipeline.ΦA; rw [scopedRest1_eq]; unfold restS1; simp only [scM1, owns_whole]
    iintro ⟨⟨H1, H2, H3, H4, H5, H6, HS⟩, Hg⟩
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [HS]; · iexact HS
    iexact Hg
  have h₂ : iprop(restS1 (F := F) c ∗ (∃ d, owns (c : Thread nD τ) scM1 fullShare d) ∗ (∃ r, prngReg c r)) ⊢ (Pipeline.ΦA spec1 c : sProp 𝕄) := by
    unfold Pipeline.ΦA; rw [scopedRest1_eq]; unfold restS1; simp only [scM1, owns_whole]
    iintro ⟨⟨H1, H2, H3, H4, H5, H6⟩, HS, Hg⟩
    isplitl [H1 H2 H3 H4 H5 H6 HS]
    · isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point, by the position of its contraction tile. First tile: the invariant hands the accumulator
    over at anything (at the very first point, what the launch gave) or at what the point before left, which is then
    forgotten; the run clears it and leaves the tile product. Middle tiles: the accumulator comes at what the point
    before left and goes back with the tile product added. Last tile: the same, and the output buffer receives the
    accumulator plus the bias row. Off the last tile the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 256 := lt_of_lt_of_eq t.isLt (show cfg1.N = 256 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [scrAt_first V c t.val t.isLt h0]
    by_cases hz : t.val = 0
    · rw [Phi1_castSucc V c t, PhiS1_zero V c _ _ hz, PhiA1_eq]
      iintro ⟨⟨HR, HS, Hg⟩, Ho, ⟨%d0, H0⟩, ⟨%d1, H1⟩, ⟨%d2, H2⟩, ⟨%d3, H3⟩⟩
      iapply (runA c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
    · rw [Phi1_castSucc V c t, PhiS1_pos V c _ _ hz]
      iintro ⟨⟨HR, HS, Hg⟩, Ho, ⟨%d0, H0⟩, ⟨%d1, H1⟩, ⟨%d2, H2⟩, ⟨%d3, H3⟩⟩
      iapply (runA c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [scrAt_next V c t.val t.isLt h0]
    rw [Phi1_castSucc V c t, PhiS1_pos V c _ _ hz]
    by_cases h7 : t.val % 8 = 7
    · have hc1 : cond1_1 (grid1.coords t) := (hcond1_1 t).mpr h7
      rw [show (dat1 V c).leavesExact 3 t = owns (c : Thread nD τ) (st1_3 t) fullShare ((dat1 V c).after 3 t) from by
        unfold Dat.leavesExact; rw [liveAt1_3 t hc1], after1_3]
      unfold outAt
      rw [scrAt_next V c t.val t.isLt h0]
      iintro ⟨⟨HR, HS, Hg⟩, Ho, ⟨%d0, H0⟩, ⟨%d1, H1⟩, ⟨%d2, H2⟩, ⟨%d3, H3⟩⟩
      iapply (runC c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h7 ((hcond1_1 t).mp h)
      rw [Dat.leavesExact_idle (dat1 V c) 3 t (idleAt1_3 t hc1) (noFlush1_3 t hc1)]
      iintro ⟨⟨HR, HS, Hg⟩, Ho, ⟨%d0, H0⟩, ⟨%d1, H1⟩, ⟨%d2, H2⟩, ⟨%d3, H3⟩⟩
      iapply (runB c (grid1.coords t) _ _ _ _ _ _ _ _ _ _ hc0 hc1 (xblk V c t) (wblk V c t) (bblk V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HR, HS, Hg⟩
  isplitl [HR]; · iexact HR
  isplitl [HS]; · iexists _; iexact HS
  iexact Hg

/-- After the last point the invariant gives the launch's form back: the accumulator's contents are forgotten. -/
theorem hout1 (c : Dev nD) : (dat1 V c).Φ (Fin.last cfg1.N) ⊢ (Pipeline.ΦA spec1 c : sProp 𝕄) :=
  Phi1_out V c _ (by rw [Fin.val_last]; have : cfg1.N = 256 := N_1; omega)

end Cert.Kernel.Hand

end
-- ==== Proof.KB.Run.lean ====
/-
  The run of @main: the host reshapes, the dequantization region, the matrix-product region, the closing reshape,
  as four segments in order. Between two segments core `c` holds every unscoped buffer whole at a valuation `Wn`
  that is computed here as a fold from the launch memory: a host stretch applies its operations, a region replaces
  its windows' arrays by what its write-backs leave. Every execution terminates and the final memory holds every
  unscoped buffer at the last valuation; the argument arrays read back through the fold are the launch contents.
-/
import proofs.«402447_j56581899157525_3_alg».proof.Proof.KB.R0
import proofs.«402447_j56581899157525_3_alg».proof.Proof.KB.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the four reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant is
    the launch's form before the first point and after the last (`hin1`, `hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, and every final
    memory holds every unscoped buffer of every core at the last valuation `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KB.Frame.lean ====
/-
  The frame of the kernel program at any float instance: every execution of @main terminates and the four argument
  arrays end as launched. No host operation writes an argument and no region stages one as an output, so an
  argument's buffer read through the fold of valuations walks back to the launch memory.
-/
import proofs.«402447_j56581899157525_3_alg».proof.Proof.KB.Run
import proofs.«402447_j56581899157525_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument array reaches the end as launched. -/
theorem W4_arg (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b hs1
    _ = W1 m c (Proc.devRef .tc b) := W2_of_ne m c b hs0
    _ = W0 m c (Proc.devRef .tc b) := StableHlo.after_of_writes_sub hostOps0 _ hostOps0_writes h0
    _ = m ((c : Thread nD τ).loc b) := rfl

/-- THE FRAME at any float instance: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩)
    (run_main m ρ)

end Cert.Kernel.Hand

end
-- ==== Proof.KI.Defs0.lean ====
/-
  Region 0 (the dequantization call), the data its frame is stated over, at any float instance and at any
  contents `V` of the core's buffers when the region is entered: each window's block at a grid point, what the
  body leaves in the output block as one function `deq0` of the two input blocks (the packed words' block and
  the scales' block), and the pipeline's proof data built from them.
-/
import proofs.«402447_j56581899157525_3_alg».proof.Proof.Gen.KernelIdeal.Launch
import proofs.«402447_j56581899157525_3_alg».proof.Proof.Gen.KernelIdeal.Skeleton
import proofs.«402447_j56581899157525_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-block rectangles the body loads and stores through. -/
abbrev r0_q : Rect S256x2048 := Rect.unit (s := S256x2048) ![0, 0] S256x2048.size inb_S256x2048_S256x2048_0_0
abbrev r0_s : Rect S256x64 := Rect.unit (s := S256x64) ![0, 0] S256x64.size inb_S256x64_S256x64_0_0
abbrev r0_w : Rect S256x4096 := Rect.unit (s := S256x4096) ![0, 0] S256x4096.size inb_S256x4096_S256x4096_0_0

/-- The body's arithmetic as one function of its two loads: the 256×2048 block of packed words `v0` and the
    256×64 block of scales `v106` give the 256×4096 block of dequantized weights (the payloads of the three
    parts of the body composed in the order the body calls them). -/
def deq0 (v0 : Vec F S256x2048 .i32) (v106 : Vec F S256x64 .f32) : FVec F S256x4096 .bf16 :=
  k0_pay1
    (k0_pay20
      (k0_pay13 (k0_pay5 v0) (k0_pay6 v0) (k0_pay7 v0) (k0_pay8 v0) (k0_pay9 v0) (k0_pay10 v0) (k0_pay11 v0) (k0_pay12 v0)
        (Scalar.ofBits .f32 0x3E24CAE3#32) (Scalar.ofBits .f32 0x3DA2FAFF#32))
      (k0_pay14 (k0_pay4 v0)) (k0_pay15 (k0_pay4 v0)) (k0_pay16 (k0_pay4 v0)) (k0_pay17 (k0_pay4 v0))
      (k0_pay18 (k0_pay4 v0)) (k0_pay19 (k0_pay4 v0)) (Scalar.ofBits .f32 0xBE3D353F#32))
    (k0_pay21 v106)
    (iota .tc S64x4096 32 [0] iota_S64x4096_d0_w32) (iota .tc S64x4096 32 [1] iota_S64x4096_d1_w32)
    64#32 k0_pay22 k0_pay23 (Scalar.cmpi .sgt 64#32 0#32)

/-- What the body leaves in the output window's staging buffer: its one store, of `deq0` of the two loads. -/
def out0_2 (x0 : Vec F S256x2048 .i32) (x1 : Vec F S256x64 .f32) : Vec F S256x4096 .bf16 :=
  View.canon [⟨r0_w, deq0 (View.ld x0 r0_q) (View.ld x1 r0_s)⟩]

/-- The proof data of pipeline 0 on core `c`: the arrays as the region finds them; after the body at point `t`
    each input's buffer at its block, the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.KI.R0.lean ====
/-
  Region 0: the body of the dequantization call at a grid point, run on the staging buffers the pipeline hands it,
  leaves the two input buffers as it found them and the output buffer at `out0_2` of the input blocks.
-/
import proofs.«402447_j56581899157525_3_alg».proof.Proof.KI.Defs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output's one store is of the whole block, so it covers the buffer. -/
theorem cover0_2 (p0 : Vec F S256x4096 .bf16) (y : S256x4096.Idx) :
    ∃ pc ∈ ([⟨r0_w, p0⟩] : List (View.Piece (Elt F) S256x4096 .bf16)), y ∈ pc.1.set :=
  View.cover_of_tiled [⟨r0_w, p0⟩] S256x4096.size (by rfl) y

set_option maxHeartbeats 1000000 in
/-- The kernel body on whole staging memrefs, the two inputs' at contents `x0`, `x1` and the output's at anything,
    runs to the continuation holding the inputs' as they were and the output's at `out0_2 x0 x1`. -/
theorem sound_kernel0 (c : Dev nD) (E : Set ℕ) (i : grid0.Coords) (arg1 : Memref sig .tc .vmem S256x2048 .i32) (harg1 : arg1.IsWhole)
    (arg2 : Memref sig .tc .vmem S256x64 .f32) (harg2 : arg2.IsWhole) (arg3 : Memref sig .tc .vmem S256x4096 .bf16) (harg3 : arg3.IsWhole)
    (x0 : Vec F S256x2048 .i32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Defs1.lean ====
/-
  Region 1 (the tiled matrix product with its accumulator), the data its frame is stated over, at any float
  instance and at any contents `V` of the core's buffers when the region is entered. Grid point `n = 8·i + k`
  works on row tile `i` and contraction tile `k`. The accumulator after point `n` is `scrAt n`: the tile product
  added to zero at `k = 0` and to what the point before left otherwise; the output block is the accumulator plus
  the bias row, stored at `k = 7` only. The region's invariant carries the accumulator between points.
-/
import proofs.«402447_j56581899157525_3_alg».proof.Proof.Gen.KernelIdeal.Launch
import proofs.«402447_j56581899157525_3_alg».proof.Proof.Gen.KernelIdeal.Skeleton
import proofs.«402447_j56581899157525_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at a point, at their literal types: the 256×512 tile of the activations, the
    512×4096 tile of the weights, the 1×4096 bias row. -/
def xblk (c : Dev nD) (t : Fin cfg1.N) : Vec F S256x512 .f32 := iblk1 V c 0 t
def wblk (c : Dev nD) (t : Fin cfg1.N) : Vec F S512x4096 .bf16 := iblk1 V c 1 t
def bblk (c : Dev nD) (t : Fin cfg1.N) : Vec F S1x4096 .f32 := iblk1 V c 2 t

/-- The accumulator after the body at position `n`: at the first contraction tile (`n % 8 = 0`) the tile product
    added to the zero block, otherwise added to what position `n - 1` left. -/
def scrAt (c : Dev nD) : (n : ℕ) → n < cfg1.N → Vec F S256x4096 .f32
  | 0, h => k1_pay2 (xblk V c ⟨0, h⟩) (k1_pay1 (F := F)) (wblk V c ⟨0, h⟩)
  | n + 1, h =>
    if (n + 1) % 8 = 0 then k1_pay2 (xblk V c ⟨n + 1, h⟩) (k1_pay1 (F := F)) (wblk V c ⟨n + 1, h⟩)
    else k1_pay2 (xblk V c ⟨n + 1, h⟩) (scrAt c n (Nat.lt_of_succ_lt h)) (wblk V c ⟨n + 1, h⟩)

theorem scrAt_first (c : Dev nD) (n : ℕ) (h : n < cfg1.N) (h0 : n % 8 = 0) :
    scrAt V c n h = k1_pay2 (xblk V c ⟨n, h⟩) (k1_pay1 (F := F)) (wblk V c ⟨n, h⟩) := by
  cases n with
  | zero => rfl
  | succ n => exact if_pos h0

theorem scrAt_next (c : Dev nD) (n : ℕ) (h : n < cfg1.N) (h0 : n % 8 ≠ 0) :
    scrAt V c n h = k1_pay2 (xblk V c ⟨n, h⟩) (scrAt V c (n - 1) (Nat.lt_of_le_of_lt (Nat.sub_le _ _) h)) (wblk V c ⟨n, h⟩) := by
  cases n with
  | zero => exact absurd (Nat.zero_mod _) h0
  | succ n => exact if_neg h0

/-- The output block the body stores at the last contraction tile: the accumulator plus the bias row. -/
def outAt (c : Dev nD) (n : ℕ) (h : n < cfg1.N) : Vec F S256x4096 .f32 :=
  k1_pay3 (scrAt V c n h) (bblk V c ⟨n, h⟩)

/-- The accumulator: a whole scoped buffer of the kernel's own. -/
abbrev scM1 : Memref sig .tc .vmem S256x4096 .f32 := Memref.whole cc1_scratch0

/-- The core's scoped buffers that region 1 neither stages nor uses (region 0's staging buffers), each whole at
    some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point what the launch hands the region (every
    scoped buffer the region does not stage at some contents, the generator register at some state); afterwards
    the same with the accumulator at what the point before left in it. -/
def PhiS1 (c : Dev nD) : (n : ℕ) → n ≤ cfg1.N → sProp 𝕄
  | 0, _ => Pipeline.ΦA spec1 c
  | n + 1, hn => iprop(restS1 c ∗ owns (c : Thread nD τ) scM1 fullShare (scrAt V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restS1 c ∗ owns (c : Thread nD τ) scM1 fullShare (scrAt V c n hn) ∗ (∃ r, prngReg c r)) := rfl

theorem PhiS1_pos (c : Dev nD) (n : ℕ) (h : n ≤ cfg1.N) (hz : n ≠ 0) :
    PhiS1 V c n h = iprop(restS1 c ∗ owns (c : Thread nD τ) scM1 fullShare (scrAt V c (n - 1) (by omega)) ∗ (∃ r, prngReg c r)) := by
  cases n with
  | zero => exact absurd rfl hz
  | succ n => rfl

/-- The proof data of pipeline 1 on core `c`: the arrays as the region finds them; after the body at point `t`
    each input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.R1.lean ====
/-
  Region 1: the body of the matrix-product call at a grid point. At the first contraction tile it clears the
  accumulator, at every tile it adds the tile product to it, at the last tile it stores accumulator plus bias into
  the output buffer; elsewhere the output buffer is handed back untouched.
-/
import proofs.«402447_j56581899157525_3_alg».proof.Proof.KI.Defs1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test, from the grid coordinates: the contraction tile is the first. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the contraction tile is the last. -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a whole-block access, however spelt. -/
theorem hz2 : (![0, 0] : Fin 2 → Nat) = fun _ => 0 := by
  funext a; match a with | ⟨0, _⟩ => rfl | ⟨1, _⟩ => rfl

/-! ## The body run once per control case

The body on any whole buffers: the three inputs at their blocks are handed back as found; the accumulator ends at
the tile product added to the zero block (first contraction tile) or to what it held (the other tiles); at the
last contraction tile the output buffer ends at the accumulator plus the bias row, elsewhere it is handed back as
found. -/

set_option maxHeartbeats 1000000 in
/-- First contraction tile: the accumulator, whatever it held, is cleared and then receives the tile product. -/
theorem runA (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : cond1_0 i) (hc1 : ¬cond1_1 i)
    (x0 : Vec F S256x512 .f32) (x1 : Vec F S512x4096 .bf16) (x2 : Vec F S1x4096 .f32) (xi3 : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 (k1_pay1 (F := F)) x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, View.ld_unit_zero (S := S256x512) hz2,
    View.ld_unit_zero (S := S512x4096) hz2, View.readCov_unit_zero (S := S256x4096) _ hz2]

set_option maxHeartbeats 1000000 in
/-- A middle contraction tile: the accumulator at known contents receives the tile product on top of them. -/
theorem runB (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : ¬cond1_0 i) (hc1 : ¬cond1_1 i)
    (x0 : Vec F S256x512 .f32) (x1 : Vec F S512x4096 .bf16) (x2 : Vec F S1x4096 .f32) (xi3 : Vec F S256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 xs x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, harg6.read_unread, View.ld_unit_zero (S := S256x512) hz2,
    View.ld_unit_zero (S := S512x4096) hz2, View.ld_unit_zero (S := S256x4096) hz2]

set_option maxHeartbeats 1000000 in
/-- Last contraction tile: as a middle tile, and then the output buffer, whatever it held, receives the accumulator
    plus the bias row. -/
theorem runC (c : Dev nD) (i : grid1.Coords)
    (arg2 : Memref sig .tc .vmem S256x512 .f32) (harg2 : arg2.IsWhole) (arg3 : Memref sig .tc .vmem S512x4096 .bf16) (harg3 : arg3.IsWhole)
    (arg4 : Memref sig .tc .vmem S1x4096 .f32) (harg4 : arg4.IsWhole) (arg5 : Memref sig .tc .vmem S256x4096 .f32) (harg5 : arg5.IsWhole)
    (arg6 : Memref sig .tc .vmem S256x4096 .f32) (harg6 : arg6.IsWhole) (hc0 : ¬cond1_0 i) (hc1 : cond1_1 i)
    (x0 : Vec F S256x512 .f32) (x1 : Vec F S512x4096 .bf16) (x2 : Vec F S1x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 xs x1) x2) ∗ owns (c : Thread nD τ) arg6 fullShare (k1_pay2 x0 xs x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero hz2 inb_S256x4096_S256x4096_0_0 y⟩)]
    rw [View.canon_cons_unit_zero hz2]
    simp only [View.readAt_eq_ld, harg2.read_unread, harg3.read_unread, harg4.read_unread, harg6.read_unread, View.ld_unit_zero (S := S256x512) hz2,
      View.ld_unit_zero (S := S512x4096) hz2, View.ld_unit_zero (S := S256x4096) hz2, View.ld_unit_zero (S := S1x4096) hz2,
      View.readCov_unit_zero (S := S256x4096) _ hz2]
  iexists _; isplitr
  swap; · iexact HS0
  ipureintro
  sl_unfold_words
  rw [View.read_writes_eq_canon _ _ _ (fun y => ⟨_, List.mem_cons_self .., View.mem_set_unit_zero hz2 inb_S256x4096_S256x4096_0_0 y⟩)]
  rw [View.canon_cons_unit_zero hz2]
  simp only [View.readAt_eq_ld, harg2.read_unread, harg3.read_unread, harg6.read_unread, View.ld_unit_zero (S := S256x512) hz2,
    View.ld_unit_zero (S := S512x4096) hz2, View.ld_unit_zero (S := S256x4096) hz2]

variable (V : (c : Dev nD) → (b : Ref sig .tc) → Buf (Elt F) ((c : Thread nD τ).loc b))

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last contraction tile the output is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at it, the output is live. -/
theorem liveAt1_3 : ∀ t : Fin cfg1.N, cond1_1 (grid1.coords t) → cfg1.idle 3 (grid1.coords t) = false := by decide +kernel

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The bias row is fetched at the first point only; its block index never moves, so the buffer still holds it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The launch's invariant with the accumulator singled out -/

/-- What the launch hands the region: region 0's six staging buffers at anything, the accumulator at anything, the
    generator register at some state. -/
theorem PhiA1_eq (c : Dev nD) :
    (Pipeline.ΦA spec1 c : sProp 𝕄)
      = iprop(restS1 (F := F) c ∗ (∃ d, owns (c : Thread nD τ) scM1 fullShare d) ∗ (∃ r, prngReg c r)) := by
  have h₁ : (Pipeline.ΦA spec1 c : sProp 𝕄) ⊢ iprop(restS1 (F := F) c ∗ (∃ d, owns (c : Thread nD τ) scM1 fullShare d) ∗ (∃ r, prngReg c r)) := by
    unfold Pipeline.ΦA; rw [scopedRest1_eq]; unfold restS1; simp only [scM1, owns_whole]
    iintro ⟨⟨H1, H2, H3, H4, H5, H6, HS⟩, Hg⟩
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [HS]; · iexact HS
    iexact Hg
  have h₂ : iprop(restS1 (F := F) c ∗ (∃ d, owns (c : Thread nD τ) scM1 fullShare d) ∗ (∃ r, prngReg c r)) ⊢ (Pipeline.ΦA spec1 c : sProp 𝕄) := by
    unfold Pipeline.ΦA; rw [scopedRest1_eq]; unfold restS1; simp only [scM1, owns_whole]
    iintro ⟨⟨H1, H2, H3, H4, H5, H6⟩, HS, Hg⟩
    isplitl [H1 H2 H3 H4 H5 H6 HS]
    · isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point, by the position of its contraction tile. First tile: the invariant hands the accumulator
    over at anything (at the very first point, what the launch gave) or at what the point before left, which is then
    forgotten; the run clears it and leaves the tile product. Middle tiles: the accumulator comes at what the point
    before left and goes back with the tile product added. Last tile: the same, and the output buffer receives the
    accumulator plus the bias row. Off the last tile the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 256 := lt_of_lt_of_eq t.isLt (show cfg1.N = 256 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [scrAt_first V c t.val t.isLt h0]
    by_cases hz : t.val = 0
    · rw [Phi1_castSucc V c t, PhiS1_zero V c _ _ hz, PhiA1_eq]
      iintro ⟨⟨HR, HS, Hg⟩, Ho, ⟨%d0, H0⟩, ⟨%d1, H1⟩, ⟨%d2, H2⟩, ⟨%d3, H3⟩⟩
      iapply (runA c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
    · rw [Phi1_castSucc V c t, PhiS1_pos V c _ _ hz]
      iintro ⟨⟨HR, HS, Hg⟩, Ho, ⟨%d0, H0⟩, ⟨%d1, H1⟩, ⟨%d2, H2⟩, ⟨%d3, H3⟩⟩
      iapply (runA c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [scrAt_next V c t.val t.isLt h0]
    rw [Phi1_castSucc V c t, PhiS1_pos V c _ _ hz]
    by_cases h7 : t.val % 8 = 7
    · have hc1 : cond1_1 (grid1.coords t) := (hcond1_1 t).mpr h7
      rw [show (dat1 V c).leavesExact 3 t = owns (c : Thread nD τ) (st1_3 t) fullShare ((dat1 V c).after 3 t) from by
        unfold Dat.leavesExact; rw [liveAt1_3 t hc1], after1_3]
      unfold outAt
      rw [scrAt_next V c t.val t.isLt h0]
      iintro ⟨⟨HR, HS, Hg⟩, Ho, ⟨%d0, H0⟩, ⟨%d1, H1⟩, ⟨%d2, H2⟩, ⟨%d3, H3⟩⟩
      iapply (runC c (grid1.coords t) _ _ _ _ _ _ _ _ _ _ hc0 hc1 (xblk V c t) (wblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h7 ((hcond1_1 t).mp h)
      rw [Dat.leavesExact_idle (dat1 V c) 3 t (idleAt1_3 t hc1) (noFlush1_3 t hc1)]
      iintro ⟨⟨HR, HS, Hg⟩, Ho, ⟨%d0, H0⟩, ⟨%d1, H1⟩, ⟨%d2, H2⟩, ⟨%d3, H3⟩⟩
      iapply (runB c (grid1.coords t) _ _ _ _ _ _ _ _ _ _ hc0 hc1 (xblk V c t) (wblk V c t) (bblk V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HR, HS, Hg⟩
  isplitl [HR]; · iexact HR
  isplitl [HS]; · iexists _; iexact HS
  iexact Hg

/-- After the last point the invariant gives the launch's form back: the accumulator's contents are forgotten. -/
theorem hout1 (c : Dev nD) : (dat1 V c).Φ (Fin.last cfg1.N) ⊢ (Pipeline.ΦA spec1 c : sProp 𝕄) :=
  Phi1_out V c _ (by rw [Fin.val_last]; have : cfg1.N = 256 := N_1; omega)

end Cert.KernelIdeal.Hand

end
-- ==== Proof.KI.Run.lean ====
/-
  The run of @main: the host reshapes, the dequantization region, the matrix-product region, the closing reshape,
  as four segments in order. Between two segments core `c` holds every unscoped buffer whole at a valuation `Wn`
  that is computed here as a fold from the launch memory: a host stretch applies its operations, a region replaces
  its windows' arrays by what its write-backs leave. Every execution terminates and the final memory holds every
  unscoped buffer at the last valuation; the argument arrays read back through the fold are the launch contents.
-/
import proofs.«402447_j56581899157525_3_alg».proof.Proof.KI.R0
import proofs.«402447_j56581899157525_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the four reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant is
    the launch's form before the first point and after the last (`hin1`, `hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, and every final
    memory holds every unscoped buffer of every core at the last valuation `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The frame of the kernel program at any float instance: every execution of @main terminates and the four argument
  arrays end as launched. No host operation writes an argument and no region stages one as an output, so an
  argument's buffer read through the fold of valuations walks back to the launch memory.
-/
import proofs.«402447_j56581899157525_3_alg».proof.Proof.KI.Run
import proofs.«402447_j56581899157525_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument array reaches the end as launched. -/
theorem W4_arg (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b hs1
    _ = W1 m c (Proc.devRef .tc b) := W2_of_ne m c b hs0
    _ = W0 m c (Proc.devRef .tc b) := StableHlo.after_of_writes_sub hostOps0 _ hostOps0_writes h0
    _ = m ((c : Thread nD τ).loc b) := rfl

/-- THE FRAME at any float instance: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩)
    (run_main m ρ)

end Cert.KernelIdeal.Hand

end
-- ==== Proof.Spec.lean ====
/-
  What both programs compute, stated once over plain index functions. A packed word holds two 4-bit codes, the
  high nibble first; a code selects one of the sixteen NF4 levels; each run of 64 consecutive weights shares one
  scale; the result is the activations times the dequantized 4096×4096 weight matrix, plus the bias.
-/
import Idealize.ShloMosaic.PureOps.Ideal
import Idealize.ShloMosaic.Lib.ValueIdx

noncomputable section

namespace Cert.Spec

open Idealize.ShloMosaic Idealize.ShloMosaic.ValueIdx
open scoped BigOperators

/-- The sixteen NF4 levels, as f32 words, by code. -/
def nf4Word : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- The 4-bit code a packed word holds at position `s`: the high nibble at `s = 0`, the low nibble otherwise. -/
def nib (w : BitVec 32) (s : ℕ) : BitVec 32 :=
  if s = 0 then (w.sshiftRight' 4#32) &&& 15#32 else w &&& 15#32

/-- A code's level, as an extended real. -/
def lvl (code : BitVec 32) : EReal :=
  Ideal.ofBits .f32 (nf4Word ⟨code.toNat % 16, Nat.mod_lt _ (by decide)⟩)

/-- The dequantized weight at row `r`, column `j`, from the packed words laid out 4096×2048 and the scales laid
    out 4096×64: column `j` of a row reads nibble `j % 2` of the row's word `j / 2` and the row's scale `j / 64`. -/
def Wq (q2 : (⟨2, ![4096, 2048]⟩ : Shape).Idx → BitVec 32) (s2 : (⟨2, ![4096, 64]⟩ : Shape).Idx → EReal)
    (r j : Fin 4096) : EReal :=
  lvl (nib (q2 (ix2 r ⟨j.val / 2, by have := j.isLt; omega⟩)) (j.val % 2))
    * s2 (ix2 r ⟨j.val / 64, by have := j.isLt; omega⟩)

/-- The same weight from the flat argument arrays: row `d`, column `e` reads word `2048·d + e / 2` and scale
    `64·d + e / 64`. -/
def Wflat (q : (⟨1, ![8388608]⟩ : Shape).Idx → BitVec 32) (s : (⟨1, ![262144]⟩ : Shape).Idx → EReal)
    (d e : Fin 4096) : EReal :=
  lvl (nib (q (ix1 ⟨d.val * 2048 + e.val / 2, by have := d.isLt; have := e.isLt; omega⟩)) (e.val % 2))
    * s (ix1 ⟨d.val * 64 + e.val / 64, by have := d.isLt; have := e.isLt; omega⟩)

/-- The result at batch `a`, position `p`, output feature `e`. -/
def Gat (x : (⟨3, ![4, 2048, 4096]⟩ : Shape).Idx → EReal) (q : (⟨1, ![8388608]⟩ : Shape).Idx → BitVec 32)
    (s : (⟨1, ![262144]⟩ : Shape).Idx → EReal) (b : (⟨1, ![4096]⟩ : Shape).Idx → EReal)
    (a : Fin 4) (p : Fin 2048) (e : Fin 4096) : EReal :=
  (∑ d : Fin 4096, x (ix3 a p d) * Wflat q s d e) + b (ix1 e)

/-- The result array. -/
def G (x : (⟨3, ![4, 2048, 4096]⟩ : Shape).Idx → EReal) (q : (⟨1, ![8388608]⟩ : Shape).Idx → BitVec 32)
    (s : (⟨1, ![262144]⟩ : Shape).Idx → EReal) (b : (⟨1, ![4096]⟩ : Shape).Idx → EReal) :
    (⟨3, ![4, 2048, 4096]⟩ : Shape).Idx → EReal :=
  fun i => Gat x q s b (i 0) (i 1) (i 2)

end Cert.Spec

end
-- ==== Proof.KI.Val0.lean ====
/-
  Region 0 at the ideal instance: the weight array after the region, element by element.

  A packed word holds two 4-bit codes, the high nibble first. The body reads a 256×2048 block of words and the
  256×64 block of the same rows' scales and writes the 256×4096 block of weights: column `j` of a row is the level
  of nibble `j % 2` of the row's word `j / 2`, times the row's scale `j / 64`. Three facts carry this. A code's
  level is chosen by a four-level selection on the code's bits 1, 2, 4, 8 among the sixteen level words, and a
  nibble is below sixteen, so the selection is the table of levels. The two blocks of levels are interleaved by
  stacking them along a new last axis of extent two and flattening it into the columns, so an even column reads
  the high nibbles' block and an odd one the low nibbles'. The scales are spread along the columns by a product
  with the 64×4096 matrix whose entry (b, c) is one where c / 64 = b and zero elsewhere (the floor division's
  sign correction never fires on 0 ≤ c < 4096): of the 64 terms of the product at column `j` only the one of the
  run `j / 64` is not zero, and a product with one or with zero is exact for every extended real, infinite ones
  included. The sixteen grid points then write back the sixteen row blocks of the array, block `t` holding rows
  256·t … 256·t + 255, and together they cover it.
-/
import proofs.«402447_j56581899157525_3_alg».proof.Proof.KI.Defs0
import proofs.«402447_j56581899157525_3_alg».proof.Proof.Spec
import Idealize.ShloMosaic.Lib.Pipeline.Value
import Idealize.ShloMosaic.Lib.ValueIdx
import Idealize.ShloMosaic.PureOps.Ideal.Laws
import Mathlib.Tactic.IntervalCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! ## Words: the level of a code, and the floor division by 64 -/

/-- The four-level selection on bits 1, 2, 4, 8 of a code among sixteen values. -/
def tree {α : Type} (L : Fin 16 → α) (c : BitVec 32) : α :=
  let b1 := IntOp.cmpi .ne (IntOp.andi c 1#32) 0#32
  let b2 := IntOp.cmpi .ne (IntOp.andi c 2#32) 0#32
  let b4 := IntOp.cmpi .ne (IntOp.andi c 4#32) 0#32
  let b8 := IntOp.cmpi .ne (IntOp.andi c 8#32) 0#32
  Scalar.select b8
    (Scalar.select b4
      (Scalar.select b2 (Scalar.select b1 (L 15) (L 14)) (Scalar.select b1 (L 13) (L 12)))
      (Scalar.select b2 (Scalar.select b1 (L 11) (L 10)) (Scalar.select b1 (L 9) (L 8))))
    (Scalar.select b4
      (Scalar.select b2 (Scalar.select b1 (L 7) (L 6)) (Scalar.select b1 (L 5) (L 4)))
      (Scalar.select b2 (Scalar.select b1 (L 3) (L 2)) (Scalar.select b1 (L 1) (L 0))))

/-- On a code below sixteen the selection picks the code's value. -/
theorem tree_eq {α : Type} (L : Fin 16 → α) (c : BitVec 32) (h : c.toNat < 16) :
    tree L c = L ⟨c.toNat % 16, Nat.mod_lt _ (by decide)⟩ := by
  have hc : c = BitVec.ofNat 32 c.toNat := by simp
  generalize c.toNat = n at h hc ⊢
  subst hc
  interval_cases n <;> rfl

/-- The sixteen levels as extended reals, by code. -/
abbrev Lv : Fin 16 → EReal := fun k => Ideal.ofBits .f32 (Cert.Spec.nf4Word k)

/-- A nibble is a code below sixteen, so the selection over the levels is the nibble's level. -/
theorem tree_nib (w : BitVec 32) (s : ℕ) : tree Lv (Cert.Spec.nib w s) = Cert.Spec.lvl (Cert.Spec.nib w s) := by
  have h : (Cert.Spec.nib w s).toNat < 16 := by
    unfold Cert.Spec.nib
    split
    · rw [BitVec.toNat_and]; exact Nat.lt_succ_of_le Nat.and_le_right
    · rw [BitVec.toNat_and]; exact Nat.lt_succ_of_le Nat.and_le_right
  exact tree_eq Lv _ h

/-- The floor division by 64 as the body computes it: the truncated quotient, less one where the signs differ and the
    remainder is not zero. -/
def fdiv (C : BitVec 32) : BitVec 32 :=
  Scalar.select
    (IntOp.andi
      (IntOp.cmpi .ne (IntOp.subi ((IntOp.cmpi .sgt C 0#32).setWidth 32) ((IntOp.cmpi .slt C 0#32).setWidth 32))
        (Scalar.subi (Scalar.extui (Scalar.cmpi .sgt 64#32 0#32)) (Scalar.extui (Scalar.cmpi .slt 64#32 0#32))))
      (IntOp.cmpi .ne (IntOp.remsi .vector C 64#32) 0#32))
    (IntOp.subi (IntOp.divsi .vector C 64#32) 1#32) (IntOp.divsi .vector C 64#32)

theorem fdiv_cases : ∀ (q r : Fin 64), fdiv (BitVec.ofNat 32 (64 * q.val + r.val)) = BitVec.ofNat 32 q.val := by
  decide +kernel

/-- Below 4096 the correction never fires: the quotient is the natural one. -/
theorem fdiv_eq (c : ℕ) (hc : c < 4096) : fdiv (BitVec.ofNat 32 c) = BitVec.ofNat 32 (c / 64) := by
  have h := fdiv_cases ⟨c / 64, by omega⟩ ⟨c % 64, Nat.mod_lt _ (by decide)⟩
  have e : 64 * (c / 64) + c % 64 = c := Nat.div_add_mod c 64
  simp only [e] at h
  exact h

/-! ## The body's arithmetic at one element -/

section Elem

/-- The high nibbles' levels: the selection over the sixteen levels on the word's high nibble. -/
theorem hi_eq (v0 : Vec Ideal S256x2048 .i32) :
    k0_pay13 (F := Ideal) (k0_pay5 v0) (k0_pay6 v0) (k0_pay7 v0) (k0_pay8 v0) (k0_pay9 v0) (k0_pay10 v0) (k0_pay11 v0) (k0_pay12 v0)
        (Scalar.ofBits .f32 0x3E24CAE3#32) (Scalar.ofBits .f32 0x3DA2FAFF#32)
      = fun i => tree Lv (Cert.Spec.nib (v0 i) 0) := by
  have e : (fun i => tree Lv (Cert.Spec.nib (v0 i) 0))
      = fun i => tree Lv (Cert.Spec.nib (shapeCast S256x2048 v0 shapeCasts_S256x2048_S256x2048 i) 0) := by
    rw [shapeCast_self]
  rw [e]
  funext i
  rfl

/-- The low nibbles' levels, as the interleaving receives them. -/
def lowSel (b1 b2 b4 b8 : IVec S256x2048 1) (a73 a76 : FVec Ideal S256x2048 .f32) (c33 : Ideal .f32) : FVec Ideal S256x2048 .f32 := fun i =>
  Scalar.select (b8 i)
    (Scalar.select (b4 i)
      (Scalar.select (b2 i) (Scalar.select (b1 i) (Lv 15) (Lv 14)) (Scalar.select (b1 i) (Lv 13) (Lv 12)))
      (Scalar.select (b2 i) (Scalar.select (b1 i) (Lv 11) (Lv 10)) (Scalar.select (b1 i) (Lv 9) (Lv 8))))
    (Scalar.select (b4 i)
      (Scalar.select (b2 i) (Scalar.select (b1 i) (Lv 7) (Lv 6)) (Scalar.select (b1 i) c33 (Lv 4)))
      (Scalar.select (b2 i) (a76 i) (a73 i)))

theorem lo_eq (v0 : Vec Ideal S256x2048 .i32) :
    lowSel (k0_pay14 (k0_pay4 v0)) (k0_pay15 (k0_pay4 v0)) (k0_pay16 (k0_pay4 v0)) (k0_pay17 (k0_pay4 v0))
        (k0_pay18 (k0_pay4 v0)) (k0_pay19 (k0_pay4 v0)) (Scalar.ofBits .f32 0xBE3D353F#32)
      = fun i => tree Lv (Cert.Spec.nib (v0 i) 1) := by
  have e : (fun i => tree Lv (Cert.Spec.nib (v0 i) 1))
      = fun i => tree Lv (Cert.Spec.nib (shapeCast S256x2048 v0 shapeCasts_S256x2048_S256x2048 i) 1) := by
    rw [shapeCast_self]
  rw [e]
  funext i
  rfl

/-- Two blocks interleaved along the columns: column `j` reads the first at `j / 2` where `j` is even, the second
    there where it is odd. -/
theorem interleave_apply (A B : FVec Ideal S256x2048 .f32) (p : Fin 256) (j : Fin 4096) :
    shapeCast S256x4096 (concatenate S256x2048x2 2
        [⟨S256x2048x1, shapeCast S256x2048x1 A shapeCasts_S256x2048_S256x2048x1⟩,
         ⟨S256x2048x1, shapeCast S256x2048x1 B shapeCasts_S256x2048_S256x2048x1⟩]
        concatenates_S256x2048x1_S256x2048x1_S256x2048x2_d2) shapeCasts_S256x2048x2_S256x4096 (ix2 p j)
      = if j.val % 2 = 0 then A (ix2 p ⟨j.val / 2, by have := j.isLt; omega⟩) else B (ix2 p ⟨j.val / 2, by have := j.isLt; omega⟩) := by
  have hj := j.isLt
  have hp := p.isLt
  refine (shapeCast_apply _ _ (ix2 p j) (ix3 p (⟨j.val / 2, by omega⟩ : Fin 2048) (⟨j.val % 2, Nat.mod_lt _ (by decide)⟩ : Fin 2)) ?_).trans ?_
  · rw [Shape.rowMajor_val_three, Shape.rowMajor_val_two]
    show (p.val * 2048 + j.val / 2) * 2 + j.val % 2 = p.val * 4096 + j.val
    omega
  · by_cases h : j.val % 2 = 0
    · rw [if_pos h]
      refine (concatenate_pair_apply_left (t := S256x2048x2) (s₁ := S256x2048x1) (s₂ := S256x2048x1) (2 : Fin 3) _ _ _ _ rfl (ix3 p (⟨j.val / 2, by omega⟩ : Fin 2048) (⟨0, by decide⟩ : Fin 1)) ?_).trans ?_
      · intro b
        match b with
        | ⟨0, _⟩ => rfl
        | ⟨1, _⟩ => rfl
        | ⟨2, _⟩ => exact h.symm
      · refine shapeCast_apply _ _ _ _ ?_
        rw [Shape.rowMajor_val_three, Shape.rowMajor_val_two]
        show p.val * 2048 + j.val / 2 = (p.val * 2048 + j.val / 2) * 1 + 0
        omega
    · rw [if_neg h]
      refine (concatenate_pair_apply_right (t := S256x2048x2) (s₁ := S256x2048x1) (s₂ := S256x2048x1) (2 : Fin 3) _ _ _ _ rfl rfl (ix3 p (⟨j.val / 2, by omega⟩ : Fin 2048) (⟨0, by decide⟩ : Fin 1)) ?_ ?_).trans ?_
      · intro b hb
        match b with
        | ⟨0, _⟩ => rfl
        | ⟨1, _⟩ => rfl
        | ⟨2, _⟩ => exact absurd rfl hb
      · show 0 + 1 = j.val % 2
        omega
      · refine shapeCast_apply _ _ _ _ ?_
        rw [Shape.rowMajor_val_three, Shape.rowMajor_val_two]
        show p.val * 2048 + j.val / 2 = (p.val * 2048 + j.val / 2) * 1 + 0
        omega

/-- The interleaved levels: column `j` holds the level of nibble `j % 2` of word `j / 2`. -/
theorem levels_apply (v0 : Vec Ideal S256x2048 .i32) (p : Fin 256) (j : Fin 4096) :
    k0_pay20 (F := Ideal)
      (k0_pay13 (k0_pay5 v0) (k0_pay6 v0) (k0_pay7 v0) (k0_pay8 v0) (k0_pay9 v0) (k0_pay10 v0) (k0_pay11 v0) (k0_pay12 v0)
        (Scalar.ofBits .f32 0x3E24CAE3#32) (Scalar.ofBits .f32 0x3DA2FAFF#32))
      (k0_pay14 (k0_pay4 v0)) (k0_pay15 (k0_pay4 v0)) (k0_pay16 (k0_pay4 v0)) (k0_pay17 (k0_pay4 v0))
      (k0_pay18 (k0_pay4 v0)) (k0_pay19 (k0_pay4 v0)) (Scalar.ofBits .f32 0xBE3D353F#32) (ix2 p j)
      = Cert.Spec.lvl (Cert.Spec.nib (v0 (ix2 p ⟨j.val / 2, by have := j.isLt; omega⟩)) (j.val % 2)) := by
  rw [hi_eq]
  have e : ∀ (v54 : FVec Ideal S256x2048 .f32) (b1 b2 b4 b8 : IVec S256x2048 1) (a73 a76 : FVec Ideal S256x2048 .f32) (c33 : Ideal .f32),
      k0_pay20 (F := Ideal) v54 b1 b2 b4 b8 a73 a76 c33
        = shapeCast S256x4096 (concatenate S256x2048x2 2
            [⟨S256x2048x1, shapeCast S256x2048x1 v54 shapeCasts_S256x2048_S256x2048x1⟩,
             ⟨S256x2048x1, shapeCast S256x2048x1 (lowSel b1 b2 b4 b8 a73 a76 c33) shapeCasts_S256x2048_S256x2048x1⟩]
            concatenates_S256x2048x1_S256x2048x1_S256x2048x2_d2) shapeCasts_S256x2048x2_S256x4096 := fun _ _ _ _ _ _ _ _ => rfl
  rw [e, lo_eq, interleave_apply]
  by_cases h : j.val % 2 = 0
  · rw [if_pos h, h]; exact tree_nib _ _
  · have h1 : j.val % 2 = 1 := by omega
    rw [if_neg h, h1]; exact tree_nib _ _

end Elem

/-! ## The scales, spread along the columns by a product with a 0/1 matrix -/

section Scales

/-- The word 0x3F800000 is one. -/
theorem one_f32 : Ideal.ofBits .f32 0x3F800000#32 = 1 := by
  simp [Ideal.ofBits, Ideal.ieee, -EReal.coe_mul]; norm_num

/-- The 0/1 matrix that spreads the scales: entry (b, c) is one where column `c`'s run of 64 is `b`. -/
def spread : FVec Ideal S64x4096 .f32 := fun i =>
  Scalar.select (IntOp.cmpi .eq (fdiv (iota .tc S64x4096 32 [1] iota_S64x4096_d1_w32 i)) (iota .tc S64x4096 32 [0] iota_S64x4096_d0_w32 i))
    (Ideal.ofBits .f32 0x3F800000#32) (Ideal.ofBits .f32 0x00000000#32)

theorem spread_apply (b : Fin 64) (c : Fin 4096) : spread (ix2 b c) = if c.val / 64 = b.val then 1 else 0 := by
  have hb := b.isLt
  have hc := c.isLt
  unfold spread
  rw [iota_single_apply, iota_single_apply]
  show Scalar.select (IntOp.cmpi .eq (fdiv (BitVec.ofNat 32 c.val)) (BitVec.ofNat 32 b.val)) _ _ = _
  rw [fdiv_eq c.val hc]
  by_cases h : c.val / 64 = b.val
  · rw [if_pos h, h]
    have e : IntOp.cmpi .eq (BitVec.ofNat 32 b.val) (BitVec.ofNat 32 b.val) = 1#1 := by simp [IntOp.cmpi]
    rw [e, select_one, one_f32]
  · rw [if_neg h]
    have hne : BitVec.ofNat 32 (c.val / 64) ≠ BitVec.ofNat 32 b.val := by
      intro e
      have e' := congrArg BitVec.toNat e
      simp only [BitVec.toNat_ofNat] at e'
      omega
    have e : IntOp.cmpi .eq (BitVec.ofNat 32 (c.val / 64)) (BitVec.ofNat 32 b.val) = 0#1 := by
      show BitVec.ofBool (BitVec.ofNat 32 (c.val / 64) == BitVec.ofNat 32 b.val) = 0#1
      rw [beq_eq_false_iff_ne.mpr hne]; rfl
    rw [e, select_zero, Ideal.ofBits_zero_f32]

theorem lhs_sc_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem lhs_sc_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem rhs_sc_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem rhs_sc_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The product of the scales' block with the 0/1 matrix: at column `j` only the term of the run `j / 64` is not
    zero, and it is the scale itself (a product with one or with zero is exact for every extended real). -/
theorem matmul_spread (v107 : FVec Ideal S256x64 .f32) (p : Fin 256) (j : Fin 4096) :
    FloatOps.matmul dot_S256x64_S64x4096_S256x4096_1_0_0_1_n_n none v107 spread (constant (F := Ideal) S256x4096 .f32 0x00000000#32) (ix2 p j)
      = v107 (ix2 p ⟨j.val / 64, by have := j.isLt; omega⟩) := by
  have hj := j.isLt
  rw [Ideal.matmul_constant_zero_apply, ← Equiv.sum_comp (contrEquiv1 dot_S256x64_S64x4096_S256x4096_1_0_0_1_n_n 64 rfl rfl).symm]
  have el : ∀ k : Fin 64, dot_S256x64_S64x4096_S256x4096_1_0_0_1_n_n.lhsIdx (ix2 p j) ((contrEquiv1 dot_S256x64_S64x4096_S256x4096_1_0_0_1_n_n 64 rfl rfl).symm k) = ix2 p k := fun k => by
    have hk := contrEquiv1_symm_val dot_S256x64_S64x4096_S256x4096_1_0_0_1_n_n 64 rfl rfl k
    exact funext fun a => Fin.ext (by
      match a with
      | ⟨0, _⟩ => exact lhs_sc_0 _ _
      | ⟨1, _⟩ => exact (lhs_sc_1 _ _).trans hk)
  have er : ∀ k : Fin 64, dot_S256x64_S64x4096_S256x4096_1_0_0_1_n_n.rhsIdx (ix2 p j) ((contrEquiv1 dot_S256x64_S64x4096_S256x4096_1_0_0_1_n_n 64 rfl rfl).symm k) = ix2 k j := fun k => by
    have hk := contrEquiv1_symm_val dot_S256x64_S64x4096_S256x4096_1_0_0_1_n_n 64 rfl rfl k
    exact funext fun a => Fin.ext (by
      match a with
      | ⟨0, _⟩ => exact (rhs_sc_0 _ _).trans hk
      | ⟨1, _⟩ => exact rhs_sc_1 _ _)
  refine (Finset.sum_congr rfl fun k _ => by rw [el k, er k]).trans ?_
  rw [Finset.sum_eq_single (⟨j.val / 64, by omega⟩ : Fin 64)]
  · rw [spread_apply, if_pos rfl, mul_one]
  · intro b _ hb
    rw [spread_apply, if_neg (fun h => hb (Fin.ext h.symm)), mul_zero]
  · intro h; exact absurd (Finset.mem_univ _) h

/-- The last part of the body at one element: the level times the row's scale of the column's run. -/
theorem scaled_apply (v105 : FVec Ideal S256x4096 .f32) (v107 : FVec Ideal S256x64 .f32) (p : Fin 256) (j : Fin 4096) :
    k0_pay1 (F := Ideal) v105 v107 (iota .tc S64x4096 32 [0] iota_S64x4096_d0_w32) (iota .tc S64x4096 32 [1] iota_S64x4096_d1_w32)
        64#32 k0_pay22 k0_pay23 (Scalar.cmpi .sgt 64#32 0#32) (ix2 p j)
      = v105 (ix2 p j) * v107 (ix2 p ⟨j.val / 64, by have := j.isLt; omega⟩) := by
  have e : k0_pay1 (F := Ideal) v105 v107 (iota .tc S64x4096 32 [0] iota_S64x4096_d0_w32) (iota .tc S64x4096 32 [1] iota_S64x4096_d1_w32)
        64#32 k0_pay22 k0_pay23 (Scalar.cmpi .sgt 64#32 0#32) (ix2 p j)
      = v105 (ix2 p j) * FloatOps.matmul dot_S256x64_S64x4096_S256x4096_1_0_0_1_n_n none v107 spread (constant (F := Ideal) S256x4096 .f32 0x00000000#32) (ix2 p j) := rfl
  rw [e, matmul_spread]

end Scales

/-- THE BODY AT ONE ELEMENT: row `p`, column `j` of the block the body stores is the level of nibble `j % 2` of the
    row's word `j / 2` times the row's scale `j / 64`. -/
theorem deq0_apply (v0 : Vec Ideal S256x2048 .i32) (v106 : Vec Ideal S256x64 .f32) (p : Fin 256) (j : Fin 4096) :
    deq0 (F := Ideal) v0 v106 (ix2 p j)
      = Cert.Spec.lvl (Cert.Spec.nib (v0 (ix2 p ⟨j.val / 2, by have := j.isLt; omega⟩)) (j.val % 2))
          * v106 (ix2 p ⟨j.val / 64, by have := j.isLt; omega⟩) := by
  unfold deq0
  rw [scaled_apply, levels_apply]
  unfold k0_pay21
  rw [shapeCast_self]

/-! ## From the blocks to the array -/

section Blocks

variable (V : (c : Dev nD) → (b : Ref sig .tc) → Buf (Elt Ideal) ((c : Thread nD τ).loc b))

theorem hz0 : (![0, 0] : Fin 2 → Nat) = fun _ => 0 := funext fun a => by fin_cases a <;> rfl

/-- The weight array after the region, as one function of the packed words and the scales. -/
abbrev Gw0 (q2 : S4096x2048.Idx → BitVec 32) (s2 : S4096x64.Idx → EReal) : S4096x4096.Idx → EReal :=
  fun i => Cert.Spec.Wq q2 s2 (i 0) (i 1)

/-- At grid point `t` each of the three windows is at block row `t`, block column 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Where the two input blocks are rows `256·tv …` of the words and of the scales, the body's block is those rows of
    the weights. -/
theorem block_eq0 (x0 : Vec Ideal S256x2048 .i32) (x1 : Vec Ideal S256x64 .f32)
    (q2 : S4096x2048.Idx → BitVec 32) (s2 : S4096x64.Idx → EReal) (tv : ℕ) (htv : tv < 16)
    (h0 : ∀ (p : Fin 256) (k : Fin 2048), x0 (ix2 p k) = q2 (ix2 ⟨tv * 256 + p.val, by have := p.isLt; omega⟩ k))
    (h1 : ∀ (p : Fin 256) (k : Fin 64), x1 (ix2 p k) = s2 (ix2 ⟨tv * 256 + p.val, by have := p.isLt; omega⟩ k))
    (y : S256x4096.Idx) (i : S4096x4096.Idx) (hi0 : (i 0).val = tv * 256 + (y 0).val) (hi1 : (i 1).val = (y 1).val) :
    deq0 (F := Ideal) x0 x1 y = Gw0 q2 s2 i := by
  obtain ⟨p, j, rfl⟩ : ∃ (p : Fin 256) (j : Fin 4096), y = ix2 p j := ⟨y 0, y 1, eq_ix2 y⟩
  have hb : tv * 256 + p.val < 4096 := by have := p.isLt; omega
  obtain ⟨r, jj, rfl⟩ : ∃ (r : Fin 4096) (jj : Fin 4096), i = ix2 r jj := ⟨i 0, i 1, eq_ix2 i⟩
  have e1 : jj = j := Fin.ext hi1
  have e0 : r = ⟨tv * 256 + p.val, hb⟩ := Fin.ext hi0
  subst e1 e0
  rw [deq0_apply, h0, h1]
  rfl

/-- WHAT POINT `t` WRITES BACK is block `t` of the weights. -/
theorem flushed_eq0 (c : Dev nD) (q2 : S4096x2048.Idx → BitVec 32) (s2 : S4096x64.Idx → EReal)
    (hq : (V c main_v2 : S4096x2048.Idx → BitVec 32) = q2) (hs : (V c main_v3 : S4096x64.Idx → EReal) = s2) (t : Fin cfg0.N) :
    (dat0 (F := Ideal) V c).flushed 2 t = ((cfg0.win 2).blk t).view.read (Elt Ideal) (Gw0 q2 s2) := by
  show (cfg0.win 2).cut (grid0.coords t) ((dat0 (F := Ideal) V c).after 2 t) = _
  rw [after0_2]
  unfold out0_2
  rw [View.canon_unit_zero hz0]
  simp only [View.ld_unit_zero (S := S256x2048) hz0, View.ld_unit_zero (S := S256x64) hz0]
  obtain ⟨e0, e1, e2, e3, e4, e5⟩ := idx_facts0 t
  have hN : t.val < 16 := Nat.lt_of_lt_of_eq t.isLt N_0
  funext y
  show deq0 (F := Ideal) (iblk0 V c 0 t) (iblk0 V c 1 t) y = Gw0 q2 s2 (((cfg0.win 2).blk t).view.emb y)
  refine block_eq0 (iblk0 V c 0 t) (iblk0 V c 1 t) q2 s2 t.val hN ?_ ?_ y (((cfg0.win 2).blk t).view.emb y) ?_ ?_
  · intro p k
    show V c main_v2 (((cfg0.win 0).blk t).view.emb (ix2 p k)) = q2 _
    rw [← hq]
    congr 1
    funext a; apply Fin.ext
    match a with
    | ⟨0, _⟩ => show win0_0.index t (0 : Fin 2) * 256 + 1 * p.val = t.val * 256 + p.val; omega
    | ⟨1, _⟩ => show win0_0.index t (1 : Fin 2) * 2048 + 1 * k.val = k.val; omega
  · intro p k
    show V c main_v3 (((cfg0.win 1).blk t).view.emb (ix2 p k)) = s2 _
    rw [← hs]
    congr 1
    funext a; apply Fin.ext
    match a with
    | ⟨0, _⟩ => show win0_1.index t (0 : Fin 2) * 256 + 1 * p.val = t.val * 256 + p.val; omega
    | ⟨1, _⟩ => show win0_1.index t (1 : Fin 2) * 64 + 1 * k.val = k.val; omega
  · show win0_2.index t (0 : Fin 2) * 256 + 1 * (y 0).val = t.val * 256 + (y 0).val; omega
  · show win0_2.index t (1 : Fin 2) * 4096 + 1 * (y 1).val = (y 1).val; omega

/-- An index of the weight array is in point `t`'s block iff each coordinate is in the block's range on its axis. -/
theorem mem_blk0 (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v4).slice (win0_2.rect t)).set ↔ _
  rw [View.set_slice_whole, Rect.mem_set_unit]
  exact Iff.rfl

/-- Row `r` is in the block of point `r / 256`, and every point writes back. -/
theorem covered0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by rw [show cfg0.N = 16 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After region 0 the weight array holds, at row `r` and column `j`, the level of nibble `j % 2` of the row's
    word `j / 2` times the row's scale `j / 64`. -/
theorem val0 (c : Dev nD) (q2 : S4096x2048.Idx → BitVec 32) (s2 : S4096x64.Idx → EReal)
    (hq : (V c main_v2 : S4096x2048.Idx → BitVec 32) = q2) (hs : (V c main_v3 : S4096x64.Idx → EReal) = s2)
    (r j : Fin 4096) :
    ((dat0 (F := Ideal) V c).arrAt 2 cfg0.N : S4096x4096.Idx → EReal) (ix2 r j) = Cert.Spec.Wq q2 s2 r j := by
  have h := (dat0 (F := Ideal) V c).arrAt_eq_of_cover 2 (Gw0 q2 s2) (fun t _ => flushed_eq0 V c q2 s2 hq hs t) covered0
  exact congrFun h (ix2 r j)

end Blocks

end Cert.KernelIdeal.Hand

end
-- ==== Proof.KI.Val1.lean ====
/-
  Region 1 at the ideal instance: the product array after the region, element by element.
-/
import proofs.«402447_j56581899157525_3_alg».proof.Proof.KI.Defs1
import proofs.«402447_j56581899157525_3_alg».proof.Proof.Spec
import Idealize.ShloMosaic.Lib.Pipeline.Value
import Idealize.ShloMosaic.Lib.ValueIdx
import Idealize.ShloMosaic.PureOps.Ideal.Laws
import Mathlib.Algebra.BigOperators.Group.Finset.Basic
import Mathlib.Data.Fintype.BigOperators

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open scoped BigOperators

/-! ## The payloads at an index -/

/-- The matrix product's dimension numbers: rows by contraction times contraction by columns. -/
abbrev D1 : DotDims S256x512 S512x4096 S256x4096 := dot_S256x512_S512x4096_S256x4096_1_0_0_1_n_n

theorem lhs_D1_0 (j : S256x4096.Idx) (k : dot_S256x512_S512x4096_S256x4096_1_0_0_1_n_n.contr.Idx) :
    (dot_S256x512_S512x4096_S256x4096_1_0_0_1_n_n.lhsIdx j k 0 : ℕ) = j 0 := by
  simp [DotDims.lhsIdx, dot_S256x512_S512x4096_S256x4096_1_0_0_1_n_n]; rfl
theorem lhs_D1_1 (j : S256x4096.Idx) (k : dot_S256x512_S512x4096_S256x4096_1_0_0_1_n_n.contr.Idx) :
    (dot_S256x512_S512x4096_S256x4096_1_0_0_1_n_n.lhsIdx j k 1 : ℕ) = k ⟨0, by decide⟩ :=
  DotDims.lhsIdx_val_of_single (d := dot_S256x512_S512x4096_S256x4096_1_0_0_1_n_n) (cl := 1) rfl j k
theorem rhs_D1_0 (j : S256x4096.Idx) (k : dot_S256x512_S512x4096_S256x4096_1_0_0_1_n_n.contr.Idx) :
    (dot_S256x512_S512x4096_S256x4096_1_0_0_1_n_n.rhsIdx j k 0 : ℕ) = k ⟨0, by decide⟩ :=
  DotDims.rhsIdx_val_of_single (d := dot_S256x512_S512x4096_S256x4096_1_0_0_1_n_n) (cr := 0) rfl j k
theorem rhs_D1_1 (j : S256x4096.Idx) (k : dot_S256x512_S512x4096_S256x4096_1_0_0_1_n_n.contr.Idx) :
    (dot_S256x512_S512x4096_S256x4096_1_0_0_1_n_n.rhsIdx j k 1 : ℕ) = j 1 := by
  simp [DotDims.rhsIdx, dot_S256x512_S512x4096_S256x4096_1_0_0_1_n_n]; rfl

/-- The zero block is zero everywhere. -/
theorem pay1_apply (p : Fin 256) (e : Fin 4096) : (k1_pay1 (F := Ideal) : S256x4096.Idx → EReal) (ix2 p e) = 0 := by
  unfold k1_pay1
  simp only [shapeCast_self]
  exact Ideal.ofBits_zero_f32

/-- The tile product at an index: the accumulator's entry plus the sum over the tile's contraction axis. -/
theorem pay2_apply (x : Vec Ideal S256x512 .f32) (acc : Vec Ideal S256x4096 .f32) (w : Vec Ideal S512x4096 .bf16)
    (p : Fin 256) (e : Fin 4096) :
    (k1_pay2 x acc w : S256x4096.Idx → EReal) (ix2 p e)
      = (acc : S256x4096.Idx → EReal) (ix2 p e)
        + ∑ j : Fin 512, (x : S256x512.Idx → EReal) (ix2 p j) * (w : S512x4096.Idx → EReal) (ix2 j e) := by
  unfold k1_pay2
  simp only [shapeCast_self]
  refine congrArg ((acc : S256x4096.Idx → EReal) (ix2 p e) + ·) ?_
  refine (Ideal.matmul_constant_zero_apply (φ₁ := .bf16) (φ₂ := .bf16) dot_S256x512_S512x4096_S256x4096_1_0_0_1_n_n none (truncf .bf16 x bitsLt_bf16_f32) w (ix2 p e)).trans ?_
  rw [← Equiv.sum_comp (contrEquiv1 dot_S256x512_S512x4096_S256x4096_1_0_0_1_n_n 512 rfl rfl).symm]
  refine Finset.sum_congr rfl fun j _ => ?_
  have hk : (((contrEquiv1 dot_S256x512_S512x4096_S256x4096_1_0_0_1_n_n 512 rfl rfl).symm j) ⟨0, by decide⟩ : ℕ) = j.val :=
    contrEquiv1_symm_val dot_S256x512_S512x4096_S256x4096_1_0_0_1_n_n 512 rfl rfl j
  have hl : dot_S256x512_S512x4096_S256x4096_1_0_0_1_n_n.lhsIdx (ix2 p e) ((contrEquiv1 dot_S256x512_S512x4096_S256x4096_1_0_0_1_n_n 512 rfl rfl).symm j) = ix2 p j := by
    funext a; apply Fin.ext
    match a with
    | ⟨0, _⟩ => exact lhs_D1_0 _ _
    | ⟨1, _⟩ => exact (lhs_D1_1 _ _).trans hk
  have hr : dot_S256x512_S512x4096_S256x4096_1_0_0_1_n_n.rhsIdx (ix2 p e) ((contrEquiv1 dot_S256x512_S512x4096_S256x4096_1_0_0_1_n_n 512 rfl rfl).symm j) = ix2 j e := by
    funext a; apply Fin.ext
    match a with
    | ⟨0, _⟩ => exact (rhs_D1_0 _ _).trans hk
    | ⟨1, _⟩ => exact rhs_D1_1 _ _
  rw [hl, hr]
  rfl

/-- The output block at an index: the accumulator's entry plus the bias entry of the column. -/
theorem pay3_apply (acc : Vec Ideal S256x4096 .f32) (b : Vec Ideal S1x4096 .f32) (p : Fin 256) (e : Fin 4096) :
    (k1_pay3 acc b : S256x4096.Idx → EReal) (ix2 p e)
      = (acc : S256x4096.Idx → EReal) (ix2 p e) + (b : S1x4096.Idx → EReal) (ix2 (0 : Fin 1) e) := by
  unfold k1_pay3
  simp only [shapeCast_self]
  refine congrArg ((acc : S256x4096.Idx → EReal) (ix2 p e) + ·) ?_
  refine broadcastTo_apply b broadcasts_S1x4096_S256x4096 (ix2 p e) (ix2 (0 : Fin 1) e) ?_
  intro a
  match a with
  | ⟨0, _⟩ => rfl
  | ⟨1, _⟩ => rfl

variable (V : (c : Dev nD) → (b : Ref sig .tc) → Buf (Elt Ideal) ((c : Thread nD τ).loc b))

/-! ## The blocks read at a point -/

/-- The arrays as total functions of natural coordinates (zero outside the array): sums over tiles are then plain
    sums over ranges. -/
def natX (x2 : S8192x4096.Idx → EReal) (r d : ℕ) : EReal :=
  if h : r < 8192 ∧ d < 4096 then x2 (ix2 ⟨r, h.1⟩ ⟨d, h.2⟩) else 0
def natW (w : S4096x4096.Idx → EReal) (d e : ℕ) : EReal :=
  if h : d < 4096 ∧ e < 4096 then w (ix2 ⟨d, h.1⟩ ⟨e, h.2⟩) else 0

theorem natX_eq (x2 : S8192x4096.Idx → EReal) (r : Fin 8192) (d : Fin 4096) : natX x2 r.val d.val = x2 (ix2 r d) := by
  unfold natX; rw [dif_pos ⟨r.isLt, d.isLt⟩]
theorem natW_eq (w : S4096x4096.Idx → EReal) (d : Fin 4096) (e : Fin 4096) : natW w d.val e.val = w (ix2 d e) := by
  unfold natW; rw [dif_pos ⟨d.isLt, e.isLt⟩]

/-- The index maps over the grid: point `t = 8·i + k` works on row tile `i = t / 8` and contraction tile `k = t % 8`. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem N1_eq : cfg1.N = 256 := N_1

/-- The activation tile at point `t`: rows `256·(t/8) + p`, contraction positions `512·(t%8) + j`. -/
theorem xblk_apply (c : Dev nD) (x2 : S8192x4096.Idx → EReal) (hx : (V c main_v0 : S8192x4096.Idx → EReal) = x2)
    (t : Fin cfg1.N) (p : Fin 256) (j : Fin 512) :
    (xblk (F := Ideal) V c t : S256x512.Idx → EReal) (ix2 p j) = natX x2 (256 * (t.val / 8) + p.val) (512 * (t.val % 8) + j.val) := by
  have hN : cfg1.N = 256 := N_1
  have ht : t.val < 256 := hN ▸ t.isLt
  obtain ⟨e0, e1, -, -, -, -, -, -⟩ := idx_facts1 t
  unfold natX
  rw [dif_pos ⟨by omega, by omega⟩, ← hx]
  show V c main_v0 (((cfg1.win 0).blk t).view.emb (ix2 p j)) = V c main_v0 _
  refine congrArg (V c main_v0) (funext fun a => Fin.ext ?_)
  match a with
  | ⟨0, _⟩ => show win1_0.index t (0 : Fin 2) * 256 + 1 * p.val = 256 * (t.val / 8) + p.val; rw [e0]; omega
  | ⟨1, _⟩ => show win1_0.index t (1 : Fin 2) * 512 + 1 * j.val = 512 * (t.val % 8) + j.val; rw [e1]; omega

/-- The weight tile at point `t`: contraction positions `512·(t%8) + j`, every column. -/
theorem wblk_apply (c : Dev nD) (w : S4096x4096.Idx → EReal) (hw : (V c main_v4 : S4096x4096.Idx → EReal) = w)
    (t : Fin cfg1.N) (j : Fin 512) (e : Fin 4096) :
    (wblk (F := Ideal) V c t : S512x4096.Idx → EReal) (ix2 j e) = natW w (512 * (t.val % 8) + j.val) e.val := by
  have hN : cfg1.N = 256 := N_1
  have ht : t.val < 256 := hN ▸ t.isLt
  obtain ⟨-, -, e0, e1, -, -, -, -⟩ := idx_facts1 t
  unfold natW
  rw [dif_pos ⟨by omega, e.isLt⟩, ← hw]
  show V c main_v4 (((cfg1.win 1).blk t).view.emb (ix2 j e)) = V c main_v4 _
  refine congrArg (V c main_v4) (funext fun a => Fin.ext ?_)
  match a with
  | ⟨0, _⟩ => show win1_1.index t (0 : Fin 2) * 512 + 1 * j.val = 512 * (t.val % 8) + j.val; rw [e0]; omega
  | ⟨1, _⟩ => show win1_1.index t (1 : Fin 2) * 4096 + 1 * e.val = e.val; rw [e1]; omega

/-- The bias row at every point is the bias array. -/
theorem bblk_apply (c : Dev nD) (b2 : S1x4096.Idx → EReal) (hb : (V c main_v1 : S1x4096.Idx → EReal) = b2)
    (t : Fin cfg1.N) (e : Fin 4096) :
    (bblk (F := Ideal) V c t : S1x4096.Idx → EReal) (ix2 (0 : Fin 1) e) = b2 (ix2 (0 : Fin 1) e) := by
  obtain ⟨-, -, -, -, e0, e1, -, -⟩ := idx_facts1 t
  rw [← hb]
  show V c main_v1 (((cfg1.win 2).blk t).view.emb (ix2 (0 : Fin 1) e)) = V c main_v1 _
  refine congrArg (V c main_v1) (funext fun a => Fin.ext ?_)
  match a with
  | ⟨0, _⟩ => show win1_2.index t (0 : Fin 2) * 1 + 1 * 0 = 0; rw [e0]
  | ⟨1, _⟩ => show win1_2.index t (1 : Fin 2) * 4096 + 1 * e.val = e.val; rw [e1]; omega

/-! ## The accumulator over a row tile -/

/-- A sum over `m` tiles of `B` positions is the sum over the first `m * B` positions. -/
theorem sum_tiles {M : Type*} [AddCommMonoid M] (B : ℕ) (f : ℕ → M) : ∀ m : ℕ,
    ∑ k ∈ Finset.range m, ∑ j ∈ Finset.range B, f (B * k + j) = ∑ d ∈ Finset.range (m * B), f d
  | 0 => by simp
  | m + 1 => by
    rw [Finset.sum_range_succ, sum_tiles B f m, show (m + 1) * B = m * B + B from Nat.succ_mul m B,
      Finset.sum_range_add, Nat.mul_comm B m]

/-- The tile product's sum at a point, over natural coordinates. -/
theorem tile_term (c : Dev nD) (x2 : S8192x4096.Idx → EReal) (w : S4096x4096.Idx → EReal)
    (hx : (V c main_v0 : S8192x4096.Idx → EReal) = x2) (hw : (V c main_v4 : S4096x4096.Idx → EReal) = w)
    (n : ℕ) (h : n < cfg1.N) (p : Fin 256) (e : Fin 4096) :
    ∑ j : Fin 512, (xblk (F := Ideal) V c ⟨n, h⟩ : S256x512.Idx → EReal) (ix2 p j) * (wblk (F := Ideal) V c ⟨n, h⟩ : S512x4096.Idx → EReal) (ix2 j e)
      = ∑ j ∈ Finset.range 512, natX x2 (256 * (n / 8) + p.val) (512 * (n % 8) + j) * natW w (512 * (n % 8) + j) e.val := by
  rw [← Fin.sum_univ_eq_sum_range (fun j => natX x2 (256 * (n / 8) + p.val) (512 * (n % 8) + j) * natW w (512 * (n % 8) + j) e.val) 512]
  refine Finset.sum_congr rfl fun j _ => ?_
  rw [xblk_apply V c x2 hx ⟨n, h⟩ p j, wblk_apply V c w hw ⟨n, h⟩ j e]

/-- The accumulator after point `n`: the products of the row tile's contraction tiles up to `n % 8`, summed. -/
theorem scr_eq (c : Dev nD) (x2 : S8192x4096.Idx → EReal) (w : S4096x4096.Idx → EReal)
    (hx : (V c main_v0 : S8192x4096.Idx → EReal) = x2) (hw : (V c main_v4 : S4096x4096.Idx → EReal) = w) :
    ∀ (n : ℕ) (h : n < cfg1.N) (p : Fin 256) (e : Fin 4096),
      (scrAt (F := Ideal) V c n h : S256x4096.Idx → EReal) (ix2 p e)
        = ∑ k ∈ Finset.range (n % 8 + 1), ∑ j ∈ Finset.range 512,
            natX x2 (256 * (n / 8) + p.val) (512 * k + j) * natW w (512 * k + j) e.val := by
  have first : ∀ (n : ℕ) (h : n < cfg1.N) (h0 : n % 8 = 0) (p : Fin 256) (e : Fin 4096),
      (scrAt (F := Ideal) V c n h : S256x4096.Idx → EReal) (ix2 p e)
        = ∑ k ∈ Finset.range (n % 8 + 1), ∑ j ∈ Finset.range 512,
            natX x2 (256 * (n / 8) + p.val) (512 * k + j) * natW w (512 * k + j) e.val := by
    intro n h h0 p e
    refine (congrFun (scrAt_first V c n h h0) (ix2 p e)).trans ?_
    refine (pay2_apply (xblk V c ⟨n, h⟩) (k1_pay1 (F := Ideal)) (wblk V c ⟨n, h⟩) p e).trans ?_
    rw [pay1_apply, zero_add, tile_term V c x2 w hx hw n h p e, h0, Nat.zero_add, Finset.sum_range_one]
  intro n
  induction n with
  | zero => exact fun h => first 0 h rfl
  | succ m ih =>
    intro h p e
    by_cases h0 : (m + 1) % 8 = 0
    · exact first (m + 1) h h0 p e
    · have e1 : scrAt (F := Ideal) V c (m + 1) h
          = k1_pay2 (xblk V c ⟨m + 1, h⟩) (scrAt V c m (Nat.lt_of_succ_lt h)) (wblk V c ⟨m + 1, h⟩) := if_neg h0
      refine (congrFun e1 (ix2 p e)).trans ?_
      refine (pay2_apply (xblk V c ⟨m + 1, h⟩) (scrAt V c m (Nat.lt_of_succ_lt h)) (wblk V c ⟨m + 1, h⟩) p e).trans ?_
      rw [ih (Nat.lt_of_succ_lt h) p e, tile_term V c x2 w hx hw (m + 1) h p e]
      have a1 : (m + 1) / 8 = m / 8 := by omega
      have a2 : (m + 1) % 8 = m % 8 + 1 := by omega
      rw [a1, a2, Finset.sum_range_succ _ (m % 8 + 1)]

/-! ## From the blocks to the array -/

/-- What the product array ends holding: at row `i 0` and column `i 1` the sum over the whole contraction axis of
    activation times weight, plus the bias entry of the column. -/
def G1 (x2 : S8192x4096.Idx → EReal) (w : S4096x4096.Idx → EReal) (b2 : S1x4096.Idx → EReal) : S8192x4096.Idx → EReal :=
  fun i => (∑ d : Fin 4096, x2 (ix2 (i 0) d) * w (ix2 d (i 1))) + b2 (ix2 (0 : Fin 1) (i 1))

/-- The whole contraction sum over natural coordinates. -/
theorem sum_nat (x2 : S8192x4096.Idx → EReal) (w : S4096x4096.Idx → EReal) (r : Fin 8192) (e : Fin 4096) :
    ∑ d : Fin 4096, x2 (ix2 r d) * w (ix2 d e) = ∑ d ∈ Finset.range 4096, natX x2 r.val d * natW w d e.val := by
  rw [← Fin.sum_univ_eq_sum_range (fun d => natX x2 r.val d * natW w d e.val) 4096]
  refine Finset.sum_congr rfl fun d _ => ?_
  rw [natX_eq, natW_eq]

/-- What a storing point (the last contraction tile of its row tile) writes back is its block of `G1`. -/
theorem flushed_eq1 (c : Dev nD) (x2 : S8192x4096.Idx → EReal) (w : S4096x4096.Idx → EReal) (b2 : S1x4096.Idx → EReal)
    (hx : (V c main_v0 : S8192x4096.Idx → EReal) = x2) (hw : (V c main_v4 : S4096x4096.Idx → EReal) = w)
    (hb : (V c main_v1 : S1x4096.Idx → EReal) = b2) (t : Fin cfg1.N) (hf : (cfg1.win 3).flush t = true) :
    (dat1 (F := Ideal) V c).flushed 3 t = ((cfg1.win 3).blk t).view.read (Elt Ideal) (G1 x2 w b2) := by
  have h7 : t.val % 8 = 7 := (flush1_3 t).mp hf
  have hN : cfg1.N = 256 := N_1
  have ht : t.val < 256 := hN ▸ t.isLt
  obtain ⟨-, -, -, -, -, -, e0, e1⟩ := idx_facts1 t
  have key : ∀ y : S256x4096.Idx, (outAt (F := Ideal) V c t.val t.isLt : S256x4096.Idx → EReal) y
      = G1 x2 w b2 (((cfg1.win 3).blk t).view.emb y) := by
    intro y
    obtain ⟨p, e, rfl⟩ : ∃ (p : Fin 256) (e : Fin 4096), y = ix2 p e := ⟨y 0, y 1, eq_ix2 y⟩
    have hemb : ((cfg1.win 3).blk t).view.emb (ix2 p e) = (ix2 (⟨256 * (t.val / 8) + p.val, by omega⟩ : Fin 8192) e : S8192x4096.Idx) := by
      funext a; apply Fin.ext
      match a with
      | ⟨0, _⟩ => show win1_3.index t (0 : Fin 2) * 256 + 1 * p.val = 256 * (t.val / 8) + p.val; rw [e0]; omega
      | ⟨1, _⟩ => show win1_3.index t (1 : Fin 2) * 4096 + 1 * e.val = e.val; rw [e1]; omega
    rw [hemb]
    show (k1_pay3 (scrAt (F := Ideal) V c t.val t.isLt) (bblk V c ⟨t.val, t.isLt⟩) : S256x4096.Idx → EReal) (ix2 p e)
      = (∑ d : Fin 4096, x2 (ix2 (⟨256 * (t.val / 8) + p.val, by omega⟩ : Fin 8192) d) * w (ix2 d e)) + b2 (ix2 (0 : Fin 1) e)
    refine (pay3_apply (scrAt (F := Ideal) V c t.val t.isLt) (bblk V c ⟨t.val, t.isLt⟩) p e).trans ?_
    rw [scr_eq V c x2 w hx hw t.val t.isLt p e, bblk_apply V c b2 hb ⟨t.val, t.isLt⟩ e, sum_nat x2 w _ e, h7,
      sum_tiles 512 (fun d => natX x2 (256 * (t.val / 8) + p.val) d * natW w d e.val) 8]
  show (cfg1.win 3).cut (grid1.coords t) ((dat1 (F := Ideal) V c).after 3 t) = _
  rw [after1_3]
  funext y
  exact key y

/-- An index of the product array is in point `t`'s block iff each coordinate is in the block's range. -/
theorem mem_blk1 (t : Fin cfg1.N) (i : S8192x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v5).slice (win1_3.rect t)).set ↔ _
  rw [View.set_slice_whole, Rect.mem_set_unit]
  exact Iff.rfl

/-- Every row lies in the block of the storing point of its row tile. -/
theorem cover1 (i : S8192x4096.Idx) : ∃ t : Fin cfg1.N, (cfg1.win 3).flush t = true ∧ i ∈ ((cfg1.win 3).blk t).view.set := by
  have hN : cfg1.N = 256 := N_1
  have hi0 : (i 0).val < 8192 := idx2_lt0 i
  have hi1 : (i 1).val < 4096 := idx2_lt1 i
  obtain ⟨t, ht⟩ : ∃ t : Fin cfg1.N, t.val = 8 * ((i 0).val / 256) + 7 := ⟨⟨8 * ((i 0).val / 256) + 7, by omega⟩, rfl⟩
  obtain ⟨-, -, -, -, -, -, e0, e1⟩ := idx_facts1 t
  refine ⟨t, (flush1_3 t).mpr (by omega), ?_⟩
  rw [mem_blk1]
  intro a
  match a with
  | ⟨0, _⟩ => show win1_3.index t (0 : Fin 2) * 256 ≤ (i 0).val ∧ (i 0).val < win1_3.index t (0 : Fin 2) * 256 + 256; rw [e0]; omega
  | ⟨1, _⟩ => show win1_3.index t (1 : Fin 2) * 4096 ≤ (i 1).val ∧ (i 1).val < win1_3.index t (1 : Fin 2) * 4096 + 4096; rw [e1]; omega

/-- After region 1 the product array holds, at row `i` and column `e`, the sum over the whole contraction axis of
    activation times weight, plus the bias entry of the column. -/
theorem val1 (c : Dev nD) (x2 : S8192x4096.Idx → EReal) (w : S4096x4096.Idx → EReal) (b2 : S1x4096.Idx → EReal)
    (hx : (V c main_v0 : S8192x4096.Idx → EReal) = x2) (hw : (V c main_v4 : S4096x4096.Idx → EReal) = w)
    (hb : (V c main_v1 : S1x4096.Idx → EReal) = b2) (i : Fin 8192) (e : Fin 4096) :
    ((dat1 (F := Ideal) V c).arrAt 3 cfg1.N : S8192x4096.Idx → EReal) (ix2 i e)
      = (∑ d : Fin 4096, x2 (ix2 i d) * w (ix2 d e)) + b2 (ix2 (0 : Fin 1) e) := by
  have hfin : (dat1 (F := Ideal) V c).arrAt 3 cfg1.N = G1 x2 w b2 :=
    (dat1 (F := Ideal) V c).arrAt_eq_of_cover 3 (G1 x2 w b2) (fun t hf => flushed_eq1 V c x2 w b2 hx hw hb t hf) cover1
  exact congrFun hfin (ix2 i e)

end Cert.KernelIdeal.Hand

end
-- ==== Proof.KI.Result.lean ====
/-
  The kernel program's result, read off its run. The result array at the last valuation is the closing reshape of region 1's product array,
  whose weights are region 0's array over the reshaped packed words and scales. At the ideal instance, element
  (a, p, e) of the result is therefore the specification's: row 2048·a + p of the reshaped activations against
  column e of the dequantized weights, plus the bias; the reshapes only rename indices.
-/
import proofs.«402447_j56581899157525_3_alg».proof.Proof.KI.Frame
import proofs.«402447_j56581899157525_3_alg».proof.Proof.KI.Val0
import proofs.«402447_j56581899157525_3_alg».proof.Proof.KI.Val1
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The reshapes, read at an index -/

theorem reshape_out {α : Type} (y : S8192x4096.Idx → α) (h : S8192x4096.ShapeCasts S4x2048x4096) (a : Fin 4) (p : Fin 2048) (e : Fin 4096) :
    shapeCast S4x2048x4096 y h (ix3 a p e) = y (ix2 ⟨a.val * 2048 + p.val, by omega⟩ e) :=
  shapeCast_apply y h _ _ (by rw [Shape.rowMajor_val_three, Shape.rowMajor_val_two]; rfl)

theorem reshape_x {α : Type} (x : S4x2048x4096.Idx → α) (h : S4x2048x4096.ShapeCasts S8192x4096) (a : Fin 4) (p : Fin 2048) (d : Fin 4096) :
    shapeCast S8192x4096 x h (ix2 ⟨a.val * 2048 + p.val, by omega⟩ d) = x (ix3 a p d) :=
  shapeCast_apply x h _ _ (by rw [Shape.rowMajor_val_three, Shape.rowMajor_val_two]; rfl)

theorem reshape_q {α : Type} (q : S8388608.Idx → α) (h : S8388608.ShapeCasts S4096x2048) (d : Fin 4096) (j : Fin 2048) :
    shapeCast S4096x2048 q h (ix2 d j) = q (ix1 ⟨d.val * 2048 + j.val, by omega⟩) :=
  shapeCast_apply q h _ _ (by rw [Shape.rowMajor_val_two, Shape.rowMajor_val_one]; rfl)

theorem reshape_s {α : Type} (s : S262144.Idx → α) (h : S262144.ShapeCasts S4096x64) (d : Fin 4096) (j : Fin 64) :
    shapeCast S4096x64 s h (ix2 d j) = s (ix1 ⟨d.val * 64 + j.val, by omega⟩) :=
  shapeCast_apply s h _ _ (by rw [Shape.rowMajor_val_two, Shape.rowMajor_val_one]; rfl)

section Value

variable (m : (ℓ : Loc nD τ sig) → Buf (Elt Ideal) ℓ) (ρ : Dev nD → PrngReg)

/-- The closing reshape's result over region 1's product array. -/
theorem W4_v6 (c : Dev nD) :
    (W4 m c (Proc.devRef .tc main_v6) : S4x2048x4096.Idx → EReal)
      = shapeCast S4x2048x4096 (W3 m c (Proc.devRef .tc main_v5) : S8192x4096.Idx → EReal) shapeCasts_S8192x4096_S4x2048x4096 := by
  show StableHlo.after hostOps2 (W3 m c) (Proc.devRef .tc main_v6) = _
  after_results; rfl

/-- The four opening reshapes' results over the launch memory. -/
theorem W1_v0 (c : Dev nD) :
    (W1 m c (Proc.devRef .tc main_v0) : S8192x4096.Idx → EReal)
      = shapeCast S8192x4096 (m ((c : Thread nD τ).loc main_arg0) : S4x2048x4096.Idx → EReal) shapeCasts_S4x2048x4096_S8192x4096 := by
  show StableHlo.after hostOps0 (W0 m c) (Proc.devRef .tc main_v0) = _
  after_results; rfl
theorem W1_v1 (c : Dev nD) :
    (W1 m c (Proc.devRef .tc main_v1) : S1x4096.Idx → EReal)
      = shapeCast S1x4096 (m ((c : Thread nD τ).loc main_arg3) : S4096.Idx → EReal) shapeCasts_S4096_S1x4096 := by
  show StableHlo.after hostOps0 (W0 m c) (Proc.devRef .tc main_v1) = _
  after_results; rfl
theorem W1_v2 (c : Dev nD) :
    (W1 m c (Proc.devRef .tc main_v2) : S4096x2048.Idx → BitVec 32)
      = shapeCast S4096x2048 (m ((c : Thread nD τ).loc main_arg1) : S8388608.Idx → BitVec 32) shapeCasts_S8388608_S4096x2048 := by
  show StableHlo.after hostOps0 (W0 m c) (Proc.devRef .tc main_v2) = _
  after_results; rfl
theorem W1_v3 (c : Dev nD) :
    (W1 m c (Proc.devRef .tc main_v3) : S4096x64.Idx → EReal)
      = shapeCast S4096x64 (m ((c : Thread nD τ).loc main_arg2) : S262144.Idx → EReal) shapeCasts_S262144_S4096x64 := by
  show StableHlo.after hostOps0 (W0 m c) (Proc.devRef .tc main_v3) = _
  after_results; rfl

/-- The result array at the last valuation is the specification of the launch contents of the arguments. -/
theorem W4_result (c : Dev nD) :
    (W4 m c (Proc.devRef .tc main_v6) : S4x2048x4096.Idx → EReal)
      = Cert.Spec.G (m ((c : Thread nD τ).loc main_arg0)) (m ((c : Thread nD τ).loc main_arg1))
          (m ((c : Thread nD τ).loc main_arg2)) (m ((c : Thread nD τ).loc main_arg3)) := by
  funext i
  obtain ⟨a, p, e, rfl⟩ : ∃ (a : Fin 4) (p : Fin 2048) (e : Fin 4096), i = ix3 a p e := ⟨i 0, i 1, i 2, eq_ix3 i⟩
  rw [W4_v6, reshape_out]
  -- region 1's array
  have h5 : (W3 m c (Proc.devRef .tc main_v5) : S8192x4096.Idx → EReal) = (dat1 (F := Ideal) (V2 m) c).arrAt 3 cfg1.N := W3_arr m c 3
  rw [h5]
  have hx : (V2 m c main_v0 : S8192x4096.Idx → EReal) = W1 m c (Proc.devRef .tc main_v0) := W2_of_ne m c main_v0 (by decide)
  have hb : (V2 m c main_v1 : S1x4096.Idx → EReal) = W1 m c (Proc.devRef .tc main_v1) := W2_of_ne m c main_v1 (by decide)
  rw [val1 (V2 m) c _ _ _ hx rfl hb]
  -- region 0's array under the sum
  have hw : ∀ d : Fin 4096, (V2 m c main_v4 : S4096x4096.Idx → EReal) (ix2 d e)
      = Cert.Spec.Wq (W1 m c (Proc.devRef .tc main_v2)) (W1 m c (Proc.devRef .tc main_v3)) d e := fun d => by
    have h4 : (V2 m c main_v4 : S4096x4096.Idx → EReal) = (dat0 (F := Ideal) (V1 m) c).arrAt 2 cfg0.N := W2_arr m c 2
    rw [h4]
    exact val0 (V1 m) c _ _ rfl rfl d e
  simp only [hw]
  -- the reshapes rename indices
  show _ = Cert.Spec.Gat _ _ _ _ a p e
  unfold Cert.Spec.Gat
  rw [W1_v1, shapeCast_a_1a_apply]
  refine congrArg (· + _) (Finset.sum_congr rfl fun d _ => ?_)
  rw [W1_v0, reshape_x]
  refine (fun (u y z : EReal) (h : y = z) => (h ▸ rfl : u * y = u * z)) _ _ _ ?_
  unfold Cert.Spec.Wq Cert.Spec.Wflat
  rw [W1_v2, W1_v3, reshape_q, reshape_s]

/-- THE VALUE at the ideal instance: every execution terminates with the result array at the specification of the
    launch contents, and the argument arrays as launched. -/
theorem result : θ_run (defs (F := Ideal)) (onTc (τ := τ) (main (F := Ideal))) ⟨m, fun _ => 0, ρ⟩ (fun r => ∀ c : Dev nD,
      (r.2.mem ((c.tc : Thread nD τ).loc main_v6) : S4x2048x4096.Idx → EReal)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W4_result m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩)
    (run_main m ρ)

end Value

end Cert.KernelIdeal.Hand

end
-- ==== Proof.RefDefs.lean ====
/-
  The reference program's value as one term of its four arguments, stage by stage in the order of @main: the two
  4-bit codes of every packed word interleaved into one flat array; the gather index (a negative index wrapped by
  16, as array indexing does); the table of the sixteen levels; the weight matrix (gathered level times the scale
  of its run of 64, laid out 4096×4096); the contraction with the activations plus the bias.
-/
import proofs.«402447_j56581899157525_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The flat array of codes: entry 2n is the high nibble of word n, entry 2n+1 its low nibble. -/
def codes (q : IVec S8388608 32) : IVec S16777216 32 :=
  shapeCast S16777216
    (concatenate S8388608x2 1
      [⟨S8388608x1, broadcastInDim S8388608x1 ![0] bcast_S8388608_S8388608x1_0
          (andi (Host.shrsi q (broadcastInDim S8388608 ![] bcast_S_S8388608 (constantI S_ 32 4#32)))
            (broadcastInDim S8388608 ![] bcast_S_S8388608 (constantI S_ 32 15#32)))⟩,
       ⟨S8388608x1, broadcastInDim S8388608x1 ![0] bcast_S8388608_S8388608x1_0
          (andi q (broadcastInDim S8388608 ![] bcast_S_S8388608 (constantI S_ 32 15#32)))⟩]
      concatenates_S8388608x1_S8388608x1_S8388608x2_d1)
    shapeCasts_S8388608x2_S16777216

/-- The gather's start indices: a negative code would be wrapped by 16 (none is). -/
def gidx (q : IVec S8388608 32) : IVec S16777216x1 32 :=
  broadcastInDim S16777216x1 ![0] bcast_S16777216_S16777216x1_0
    (select (cmpi .slt (codes q) (broadcastInDim S16777216 ![] bcast_S_S16777216 (constantI S_ 32 0#32)))
      (addi (codes q) (broadcastInDim S16777216 ![] bcast_S_S16777216 (constantI S_ 32 16#32)))
      (codes q))

/-- The table of the sixteen levels. -/
def table : FVec F S16 .f32 := fun i => FloatOps.ofBits .f32 (lit0 (S16.rowMajor i))

/-- The dequantized weight matrix. -/
def wmat (q : IVec S8388608 32) (s : FVec F S262144 .f32) : FVec F S4096x4096 .f32 :=
  shapeCast S4096x4096
    (mulf
      (shapeCast S262144x64 (Host.gather gather_S16_S16777216x1_S16777216_n_0_n_n_0_1_1 (table (F := F)) (gidx q))
        shapeCasts_S16777216_S262144x64)
      (broadcastInDim S262144x64 ![0, 1] bcast_S262144x1_S262144x64_0_1
        (broadcastInDim S262144x1 ![0] bcast_S262144_S262144x1_0 s)))
    shapeCasts_S262144x64_S4096x4096

/-- The result. -/
def res (x : FVec F S4x2048x4096 .f32) (q : IVec S8388608 32) (s : FVec F S262144 .f32) (b : FVec F S4096 .f32) :
    FVec F S4x2048x4096 .f32 :=
  addf (Host.dotGeneral dot_S4x2048x4096_S4096x4096_S4x2048x4096_2_0_01_1_n_n none x (wmat q s))
    (broadcastInDim S4x2048x4096 ![0, 1, 2] bcast_S1x1x4096_S4x2048x4096_0_1_2
      (broadcastInDim S1x1x4096 ![2] bcast_S4096_S1x1x4096_2 b))

end Cert.ReferenceIdeal.Hand

end
-- ==== Proof.RefRun.lean ====
/-
  The reference program's @main as the list of its host operations, and its run read back: every execution
  terminates with the result array at `res` of the arguments' launch contents and the arguments unchanged.
-/
import proofs.«402447_j56581899157525_3_alg».proof.Proof.RefDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 32 operations, in order. -/
abbrev ops : List (HloOp τ sig (Elt F)) :=
  [ nullary main_cst (fun i => FloatOps.ofBits .f32 (lit0 (S16.rowMajor i))),
    nullary main_c (constantI S_ 32 4#32),
    unary main_c main_v0 (broadcastInDim S8388608 ![] bcast_S_S8388608 : (⟨S_, .i32⟩ : BufTy).Contents (Elt F) → (⟨S8388608, .i32⟩ : BufTy).Contents (Elt F)),
    binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    nullary main_c_0 (constantI S_ 32 15#32),
    unary main_c_0 main_v2 (broadcastInDim S8388608 ![] bcast_S_S8388608 : (⟨S_, .i32⟩ : BufTy).Contents (Elt F) → (⟨S8388608, .i32⟩ : BufTy).Contents (Elt F)),
    binary main_v1 main_v2 main_v3 (andi : (⟨S8388608, .i32⟩ : BufTy).Contents (Elt F) → (⟨S8388608, .i32⟩ : BufTy).Contents (Elt F) → (⟨S8388608, .i32⟩ : BufTy).Contents (Elt F)),
    nullary main_c_1 (constantI S_ 32 15#32),
    unary main_c_1 main_v4 (broadcastInDim S8388608 ![] bcast_S_S8388608 : (⟨S_, .i32⟩ : BufTy).Contents (Elt F) → (⟨S8388608, .i32⟩ : BufTy).Contents (Elt F)),
    binary main_arg1 main_v4 main_v5 (andi : (⟨S8388608, .i32⟩ : BufTy).Contents (Elt F) → (⟨S8388608, .i32⟩ : BufTy).Contents (Elt F) → (⟨S8388608, .i32⟩ : BufTy).Contents (Elt F)),
    unary main_v3 main_v6 (broadcastInDim S8388608x1 ![0] bcast_S8388608_S8388608x1_0 : (⟨S8388608, .i32⟩ : BufTy).Contents (Elt F) → (⟨S8388608x1, .i32⟩ : BufTy).Contents (Elt F)),
    unary main_v5 main_v7 (broadcastInDim S8388608x1 ![0] bcast_S8388608_S8388608x1_0 : (⟨S8388608, .i32⟩ : BufTy).Contents (Elt F) → (⟨S8388608x1, .i32⟩ : BufTy).Contents (Elt F)),
    binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v8 main_v9 rfl shapeCasts_S8388608x2_S16777216,
    nullary main_c_2 (constantI S_ 32 0#32),
    unary main_c_2 main_v10 (broadcastInDim S16777216 ![] bcast_S_S16777216 : (⟨S_, .i32⟩ : BufTy).Contents (Elt F) → (⟨S16777216, .i32⟩ : BufTy).Contents (Elt F)),
    binary main_v9 main_v10 main_v11 (cmpi .slt : (⟨S16777216, .i32⟩ : BufTy).Contents (Elt F) → (⟨S16777216, .i32⟩ : BufTy).Contents (Elt F) → (⟨S16777216, .i1⟩ : BufTy).Contents (Elt F)),
    nullary main_c_3 (constantI S_ 32 16#32),
    unary main_c_3 main_v12 (broadcastInDim S16777216 ![] bcast_S_S16777216 : (⟨S_, .i32⟩ : BufTy).Contents (Elt F) → (⟨S16777216, .i32⟩ : BufTy).Contents (Elt F)),
    binary main_v9 main_v12 main_v13 (addi : (⟨S16777216, .i32⟩ : BufTy).Contents (Elt F) → (⟨S16777216, .i32⟩ : BufTy).Contents (Elt F) → (⟨S16777216, .i32⟩ : BufTy).Contents (Elt F)),
    ternary main_v11 main_v13 main_v9 main_v14 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v14 main_v15 (broadcastInDim S16777216x1 ![0] bcast_S16777216_S16777216x1_0 : (⟨S16777216, .i32⟩ : BufTy).Contents (Elt F) → (⟨S16777216x1, .i32⟩ : BufTy).Contents (Elt F)),
    binary main_cst main_v15 main_v16 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v16 main_v17 rfl shapeCasts_S16777216_S262144x64,
    unary main_arg2 main_v18 (broadcastInDim S262144x1 ![0] bcast_S262144_S262144x1_0 : (⟨S262144, .f32⟩ : BufTy).Contents (Elt F) → (⟨S262144x1, .f32⟩ : BufTy).Contents (Elt F)),
    unary main_v18 main_v19 (broadcastInDim S262144x64 ![0, 1] bcast_S262144x1_S262144x64_0_1 : (⟨S262144x1, .f32⟩ : BufTy).Contents (Elt F) → (⟨S262144x64, .f32⟩ : BufTy).Contents (Elt F)),
    binary main_v17 main_v19 main_v20 (mulf : (⟨S262144x64, .f32⟩ : BufTy).Contents (Elt F) → (⟨S262144x64, .f32⟩ : BufTy).Contents (Elt F) → (⟨S262144x64, .f32⟩ : BufTy).Contents (Elt F)),
    reshape main_v20 main_v21 rfl shapeCasts_S262144x64_S4096x4096,
    binary main_arg0 main_v21 main_v22 ((fun l r => Host.dotGeneral dot_S4x2048x4096_S4096x4096_S4x2048x4096_2_0_01_1_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v22 main_v24 main_v25 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 2048 in
/-- @main is the sequence of its operations. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
/-- Every operation reads and writes TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub ..⟩

set_option maxHeartbeats 4000000 in
/-- The fold of the operations' results at the result buffer is `res` of the arguments' contents: each operation's
    result at its own buffer is its function of its operands' contents, and at any other buffer what was there. -/
theorem after_v25 (V : Valuation τ sig (Elt F)) :
    after (ops (F := F)) V (Proc.devRef .tc main_v25)
      = res (V (Proc.devRef .tc main_arg0)) (V (Proc.devRef .tc main_arg1)) (V (Proc.devRef .tc main_arg2))
          (V (Proc.devRef .tc main_arg3)) := by
  after_results_simp
  -- the two operands of the concatenation, inside its operand list
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rfl

set_option maxHeartbeats 1000000 in
/-- No operation writes the first argument. -/
theorem after_arg0 (V : Valuation τ sig (Elt F)) :
    after (ops (F := F)) V (Proc.devRef .tc main_arg0) = V (Proc.devRef .tc main_arg0) := by
  after_results_simp

set_option maxHeartbeats 1000000 in
/-- No operation writes the second argument. -/
theorem after_arg1 (V : Valuation τ sig (Elt F)) :
    after (ops (F := F)) V (Proc.devRef .tc main_arg1) = V (Proc.devRef .tc main_arg1) := by
  after_results_simp

set_option maxHeartbeats 1000000 in
/-- No operation writes the third argument. -/
theorem after_arg2 (V : Valuation τ sig (Elt F)) :
    after (ops (F := F)) V (Proc.devRef .tc main_arg2) = V (Proc.devRef .tc main_arg2) := by
  after_results_simp

set_option maxHeartbeats 1000000 in
/-- No operation writes the fourth argument. -/
theorem after_arg3 (V : Valuation τ sig (Elt F)) :
    after (ops (F := F)) V (Proc.devRef .tc main_arg3) = V (Proc.devRef .tc main_arg3) := by
  after_results_simp

/-- Every weakly fair execution of @main terminates with the result at `res` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = res (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (after_v25 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.Hand

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, with the clamp kept.

  A gather whose start indices are an [e × 1] column (the index vector on axis 1, one component, sent to
  operand axis 0, that axis collapsed with a slice of one row) reads, for result row p, the operand row

      min (toNat (idx[p, 0] read as a signed integer)) (n - 1):

  a negative word is sent to row 0 (`Int.toNat` of a negative integer is 0) and a word at or past the
  number of rows n is sent to the last row n - 1.  Nothing is asked of the word.  With a rank-1 operand the
  result element p is that element of the operand; with an [n × f] operand whose second axis is an offset
  axis of full width, result element (p, c) is the operand's element (that row, c).

  Each statement takes the dimension numbers' fields as hypotheses, so it applies to any record with
  those fields; the operand must have at least one row for the clamped row to exist.
-/
import proofs.«402447_j56581899157525_3_alg».proof.Proof.LibIndexMaps

noncomputable section

namespace Cert.LibGatherClamp

open Idealize.ShloMosaic Idealize.ShloMosaic.ValueIdx Cert.Gcn.IndexMaps

/-- The clamped row lies in the operand: `min a (n - 1) < n` once the operand has a row. -/
theorem clamp_lt {n : ℕ} (hn : 0 < n) (a : ℕ) : min a (n - 1) < n :=
  Nat.lt_of_le_of_lt (Nat.min_le_right a (n - 1)) (Nat.sub_lt hn Nat.one_pos)

/-- Rank-1 operand of n ≥ 1 elements, [e × 1] start indices, rank-1 result: result element j is the
    operand's element `min (toNat (the word at (j, 0) read signed)) (n - 1)`, whatever the word is. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx) :
    Host.gather d x idx j
      = x (ix1 (⟨min (idx (ix2 (j 0) (0 : Fin 1))).toInt.toNat (n - 1), clamp_lt hn _⟩ : Fin n)) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0
    = min (idx (ix2 (j 0) (0 : Fin 1))).toInt.toNat (n - 1)
  rw [GatherDims.batchCoord_eq_zero _ _ _ hb, GatherDims.offCoord_eq_zero _ _ _ hkp]
  unfold GatherDims.start
  rw [dif_pos hm, gather_siIdx_rank1 d hivd j _ _ (0 : Fin 1) hi, hsl]
  show min (idx (ix2 (j 0) (0 : Fin 1))).toInt.toNat (n - 1) + 0 + 0
    = min (idx (ix2 (j 0) (0 : Fin 1))).toInt.toNat (n - 1)
  rfl

/-- A gather of a rank-1 operand of n ≥ 1 elements by an [e × 1] column of start indices reads, at result
    element p, operand element `min (toNat (idx[p, 0] read signed)) (n - 1)`: a negative word reads
    element 0, a word past the end reads the last element. -/
theorem gather1_clamp_ix_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p)
      = x (ix1 (⟨min (idx (ix2 p (0 : Fin 1))).toInt.toNat (n - 1), by omega⟩ : Fin n)) :=
  gather1_clamp_apply hn d hcoll hob hsim hivd x idx (ix1 p)

/-- [n × f] operand with n ≥ 1 rows, [e × 1] start indices, [e × f] result, the second axis an offset axis
    of full width: result element j = (p, c) is the operand's element
    (`min (toNat (the word at (p, 0) read signed)) (n - 1)`, c), whatever the word is. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx) :
    Host.gather d x idx j
      = x (ix2 (⟨min (idx (ix2 (j 0) (0 : Fin 1))).toInt.toNat (n - 1), clamp_lt hn _⟩ : Fin n)
            ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨min (idx (ix2 (j 0) (0 : Fin 1))).toInt.toNat (n - 1), clamp_lt hn _⟩ : Fin n)
        (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    show min (idx (ix2 (j 0) (0 : Fin 1))).toInt.toNat (n - 1) + 0 + 0
      = min (idx (ix2 (j 0) (0 : Fin 1))).toInt.toNat (n - 1)
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- A gather of an [n × f] operand with n ≥ 1 rows by an [e × 1] column of start indices, whole rows taken,
    reads at result element (p, c) the operand's element (`min (toNat (idx[p, 0] read signed)) (n - 1)`, c):
    a negative word reads row 0, a word past the end reads the last row. -/
theorem gather2_clamp_ix_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c)
      = x (ix2 (⟨min (idx (ix2 p (0 : Fin 1))).toInt.toNat (n - 1), by omega⟩ : Fin n) c) :=
  gather2_clamp_apply hn d hod hcoll hob hsim hivd x idx (ix2 p c)

end Cert.LibGatherClamp

end
-- ==== Proof.RefValue.lean ====
/-
  The reference program's run, read back: every execution ends with the result array at `Cert.Spec.G` of the four
  argument arrays — the gathered level of each 4-bit code times its block's scale, laid out 4096×4096, contracted
  with the activations, plus the bias — and the arguments unchanged.

  The reference's term is read at one element, stage by stage: the two nibbles of a packed word and their
  interleaving; the gather index (a code is below sixteen, so neither the wrap of a negative index nor the
  gather's clamp changes it); the table row as the code's level; the weight at (d, e) from flat position
  4096·d + e; the contraction as a sum over the contracted coordinate; the bias.
-/
import proofs.«402447_j56581899157525_3_alg».proof.Proof.RefRun
import proofs.«402447_j56581899157525_3_alg».proof.Proof.Spec
import proofs.«402447_j56581899157525_3_alg».proof.Proof.LibGatherClamp
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The two nibbles of a packed word -/

/-- The high nibble of word w: shifted right by four (sign-filling), masked by 15. -/
theorem hi_apply (q : IVec S8388608 32) (w : Fin 8388608) :
    andi (Host.shrsi q (broadcastInDim S8388608 ![] bcast_S_S8388608 (constantI S_ 32 4#32)))
        (broadcastInDim S8388608 ![] bcast_S_S8388608 (constantI S_ 32 15#32)) (ix1 w)
      = (q (ix1 w)).sshiftRight' 4#32 &&& 15#32 := by
  show IntOp.andi (IntOp.shrsi .host (q (ix1 w)) 4#32) 15#32 = _
  unfold IntOp.shrsi
  rw [if_pos (by decide)]
  rfl

/-- The low nibble of word w: masked by 15. -/
theorem lo_apply (q : IVec S8388608 32) (w : Fin 8388608) :
    andi q (broadcastInDim S8388608 ![] bcast_S_S8388608 (constantI S_ 32 15#32)) (ix1 w) = q (ix1 w) &&& 15#32 := rfl

/-- A flat array laid out as one column reads its element at the row. -/
theorem col_q_apply (v : IVec S8388608 32) (w : Fin 8388608) (c : Fin 1) :
    broadcastInDim S8388608x1 ![0] bcast_S8388608_S8388608x1_0 v (ix2 w c) = v (ix1 w) := by
  refine broadcastInDim_apply _ _ v _ _ fun a => ?_
  match a with
  | ⟨0, _⟩ => exact (if_neg (show ¬ (8388608 : ℕ) = 1 by decide)).symm

/-- The two columns side by side: column 0 reads the first array, column 1 the second. -/
theorem pair_apply (u v : IVec S8388608 32) (w : Fin 8388608) (c : Fin 2) :
    concatenate S8388608x2 1
        [⟨S8388608x1, broadcastInDim S8388608x1 ![0] bcast_S8388608_S8388608x1_0 u⟩,
         ⟨S8388608x1, broadcastInDim S8388608x1 ![0] bcast_S8388608_S8388608x1_0 v⟩]
        concatenates_S8388608x1_S8388608x1_S8388608x2_d1 (ix2 w c)
      = if c.val = 0 then u (ix1 w) else v (ix1 w) := by
  by_cases hc : c.val = 0
  · rw [if_pos hc]
    refine (concatenate_pair_apply_left (t := S8388608x2) (s₁ := S8388608x1) (s₂ := S8388608x1) (1 : Fin 2) _ _ _ (ix2 w c) rfl (ix2 w (0 : Fin 1)) fun b => ?_).trans (col_q_apply u w 0)
    match b with
    | ⟨0, _⟩ => rfl
    | ⟨1, _⟩ => exact hc.symm
  · rw [if_neg hc]
    refine (concatenate_pair_apply_right (t := S8388608x2) (s₁ := S8388608x1) (s₂ := S8388608x1) (1 : Fin 2) _ _ _ (ix2 w c) rfl rfl (ix2 w (0 : Fin 1)) (fun b hb => ?_) ?_).trans (col_q_apply v w 0)
    · match b with
      | ⟨0, _⟩ => rfl
      | ⟨1, _⟩ => exact absurd rfl hb
    · show 0 + 1 = c.val
      have := c.isLt; omega

/-- Entry n of the flat array of codes is nibble n % 2 of word n / 2. -/
theorem codes_apply (q : IVec S8388608 32) (n : Fin 16777216) :
    codes q (ix1 n) = Cert.Spec.nib (q (ix1 ⟨n.val / 2, by have := n.isLt; omega⟩)) (n.val % 2) := by
  unfold codes
  refine (shapeCast_apply _ shapeCasts_S8388608x2_S16777216 (ix1 n)
    (ix2 (⟨n.val / 2, by have := n.isLt; omega⟩ : Fin 8388608) (⟨n.val % 2, Nat.mod_lt _ (by decide)⟩ : Fin 2)) ?_).trans ?_
  · rw [Shape.rowMajor_val_two, Shape.rowMajor_val_one]
    show n.val / 2 * 2 + n.val % 2 = n.val
    omega
  · rw [pair_apply, hi_apply, lo_apply]
    rfl

/-! ## A code is below sixteen: the wrap of a negative index and the clamp of the gather leave it alone -/

/-- A nibble is below sixteen. -/
theorem nib_lt (w : BitVec 32) (s : ℕ) : (Cert.Spec.nib w s).toNat < 16 := by
  unfold Cert.Spec.nib
  split
  · rw [BitVec.toNat_and]
    exact Nat.lt_of_le_of_lt Nat.and_le_right (by decide)
  · rw [BitVec.toNat_and]
    exact Nat.lt_of_le_of_lt Nat.and_le_right (by decide)

/-- A word below sixteen is not negative, so the wrap by sixteen picks the word itself. -/
theorem wrap_code (c : BitVec 32) (h : c.toNat < 16) :
    Scalar.select (IntOp.cmpi .slt c 0#32) (IntOp.addi c 16#32) c = c := by
  obtain ⟨k, rfl⟩ : ∃ k : Fin 16, c = BitVec.ofNat 32 k.val := ⟨⟨c.toNat, h⟩, by simp⟩
  revert k
  decide

/-- A word below sixteen read as a signed integer and clamped to [0, 15] is its own value. -/
theorem clamp_code (c : BitVec 32) (h : c.toNat < 16) : min c.toInt.toNat (16 - 1) = c.toNat % 16 := by
  obtain ⟨k, rfl⟩ : ∃ k : Fin 16, c = BitVec.ofNat 32 k.val := ⟨⟨c.toNat, h⟩, by simp⟩
  revert k
  decide

/-- The gather's start index of entry n is the entry's code. -/
theorem gidx_apply (q : IVec S8388608 32) (n : Fin 16777216) (c : Fin 1) :
    gidx q (ix2 n c) = codes q (ix1 n) := by
  unfold gidx
  refine (broadcastInDim_apply _ _ _ (ix2 n c) (ix1 n) fun a => ?_).trans ?_
  · match a with
    | ⟨0, _⟩ => exact (if_neg (show ¬ (16777216 : ℕ) = 1 by decide)).symm
  · show Scalar.select (IntOp.cmpi .slt (codes q (ix1 n)) 0#32) (IntOp.addi (codes q (ix1 n)) 16#32) (codes q (ix1 n)) = _
    exact wrap_code _ (by rw [codes_apply]; exact nib_lt _ _)

/-! ## The table of levels -/

/-- The program's table of sixteen words is the specification's, entry by entry. -/
theorem lit0_eq : ∀ k : Fin 16, lit0 k = Cert.Spec.nf4Word k := by decide

/-- Row k of the table is the level of code k. -/
theorem table_apply (k : Fin 16) : table (F := Ideal) (ix1 k) = Ideal.ofBits .f32 (Cert.Spec.nf4Word k) := by
  show FloatOps.ofBits (F := Ideal) .f32 (lit0 (S16.rowMajor (ix1 k))) = _
  rw [Ideal.ofBits_def, show S16.rowMajor (ix1 k) = k from Fin.ext (Shape.rowMajor_val_one _), lit0_eq]

/-- The table's row at the clamped value of a code below sixteen is the code's level. -/
theorem lvl_row (c : BitVec 32) (h : c.toNat < 16) (r : Fin 16) (hr : r.val = min c.toInt.toNat (16 - 1)) :
    Ideal.ofBits .f32 (Cert.Spec.nf4Word r) = Cert.Spec.lvl c := by
  unfold Cert.Spec.lvl
  exact congrArg (fun k => Ideal.ofBits .f32 (Cert.Spec.nf4Word k)) (Fin.ext (hr.trans (clamp_code c h)))

/-- Entry n of the gathered array is the level of entry n's code. -/
theorem gathered_apply (q : IVec S8388608 32) (n : Fin 16777216) :
    Host.gather gather_S16_S16777216x1_S16777216_n_0_n_n_0_1_1 (table (F := Ideal)) (gidx q) (ix1 n)
      = Cert.Spec.lvl (codes q (ix1 n)) := by
  refine (Cert.LibGatherClamp.gather1_clamp_ix_apply (n := 16) (e := 16777216) (by decide)
    gather_S16_S16777216x1_S16777216_n_0_n_n_0_1_1 rfl rfl rfl rfl (table (F := Ideal)) (gidx q) n).trans ?_
  rw [table_apply]
  exact lvl_row _ (by rw [codes_apply]; exact nib_lt _ _) _
    (by show min (gidx q (ix2 n 0)).toInt.toNat (16 - 1) = _; rw [gidx_apply])

/-! ## The weight matrix -/

/-- The scale of row r of the [262144 × 64] layout, at every column. -/
theorem scale_apply (s : FVec Ideal S262144 .f32) (r : Fin 262144) (c : Fin 64) :
    broadcastInDim S262144x64 ![0, 1] bcast_S262144x1_S262144x64_0_1
      (broadcastInDim S262144x1 ![0] bcast_S262144_S262144x1_0 s) (ix2 r c) = s (ix1 r) := by
  refine (broadcastInDim_apply _ _ _ (ix2 r c) (ix2 r (0 : Fin 1)) fun a => ?_).trans ?_
  · match a with
    | ⟨0, _⟩ => exact (if_neg (show ¬ (262144 : ℕ) = 1 by decide)).symm
    | ⟨1, _⟩ => exact (if_pos rfl).symm
  · refine broadcastInDim_apply _ _ _ (ix2 r (0 : Fin 1)) (ix1 r) fun a => ?_
    match a with
    | ⟨0, _⟩ => exact (if_neg (show ¬ (262144 : ℕ) = 1 by decide)).symm

/-- The weight at row d, column e. -/
theorem wmat_apply (q : IVec S8388608 32) (s : FVec Ideal S262144 .f32) (d e : Fin 4096) :
    wmat (F := Ideal) q s (ix2 d e) = Cert.Spec.Wflat q s d e := by
  have hd := d.isLt
  have he := e.isLt
  unfold wmat
  refine (shapeCast_apply _ shapeCasts_S262144x64_S4096x4096 (ix2 d e)
    (ix2 (⟨d.val * 64 + e.val / 64, by omega⟩ : Fin 262144) (⟨e.val % 64, Nat.mod_lt _ (by decide)⟩ : Fin 64)) ?_).trans ?_
  · rw [Shape.rowMajor_val_two, Shape.rowMajor_val_two]
    show (d.val * 64 + e.val / 64) * 64 + e.val % 64 = d.val * 4096 + e.val
    omega
  · rw [mulf_apply, scale_apply,
      shapeCast_apply _ shapeCasts_S16777216_S262144x64 _ (ix1 (⟨d.val * 4096 + e.val, by omega⟩ : Fin 16777216))
        (by rw [Shape.rowMajor_val_two, Shape.rowMajor_val_one]
            show d.val * 4096 + e.val = (d.val * 64 + e.val / 64) * 64 + e.val % 64
            omega),
      gathered_apply, codes_apply]
    unfold Cert.Spec.Wflat
    have h1 : (d.val * 4096 + e.val) / 2 = d.val * 2048 + e.val / 2 := by omega
    have h2 : (d.val * 4096 + e.val) % 2 = e.val % 2 := by omega
    simp only [h1, h2]

/-! ## The contraction -/

/-- The left operand's first coordinate is the result's batch coordinate. -/
theorem lhs_dot_0 (j : S4x2048x4096.Idx) (k : dot_S4x2048x4096_S4096x4096_S4x2048x4096_2_0_01_1_n_n.contr.Idx) :
    (dot_S4x2048x4096_S4096x4096_S4x2048x4096_2_0_01_1_n_n.lhsIdx j k 0).val = (j 0).val := by
  unfold DotDims.lhsIdx
  rw [dif_neg (show ¬ (0 : Fin S4x2048x4096.rank) ∈ dot_S4x2048x4096_S4096x4096_S4x2048x4096_2_0_01_1_n_n.lhsBatch by decide),
    dif_pos (show (0 : Fin S4x2048x4096.rank) ∈ dot_S4x2048x4096_S4096x4096_S4x2048x4096_2_0_01_1_n_n.lhsNonContracting by decide)]
  rfl

/-- The left operand's second coordinate is the result's position coordinate. -/
theorem lhs_dot_1 (j : S4x2048x4096.Idx) (k : dot_S4x2048x4096_S4096x4096_S4x2048x4096_2_0_01_1_n_n.contr.Idx) :
    (dot_S4x2048x4096_S4096x4096_S4x2048x4096_2_0_01_1_n_n.lhsIdx j k 1).val = (j 1).val := by
  unfold DotDims.lhsIdx
  rw [dif_neg (show ¬ (1 : Fin S4x2048x4096.rank) ∈ dot_S4x2048x4096_S4096x4096_S4x2048x4096_2_0_01_1_n_n.lhsBatch by decide),
    dif_pos (show (1 : Fin S4x2048x4096.rank) ∈ dot_S4x2048x4096_S4096x4096_S4x2048x4096_2_0_01_1_n_n.lhsNonContracting by decide)]
  rfl

/-- The right operand's column is the result's output feature. -/
theorem rhs_dot_1 (j : S4x2048x4096.Idx) (k : dot_S4x2048x4096_S4096x4096_S4x2048x4096_2_0_01_1_n_n.contr.Idx) :
    (dot_S4x2048x4096_S4096x4096_S4x2048x4096_2_0_01_1_n_n.rhsIdx j k 1).val = (j 2).val := by
  unfold DotDims.rhsIdx
  rw [dif_neg (show ¬ (1 : Fin S4096x4096.rank) ∈ dot_S4x2048x4096_S4096x4096_S4x2048x4096_2_0_01_1_n_n.rhsBatch by decide),
    dif_pos (show (1 : Fin S4096x4096.rank) ∈ dot_S4x2048x4096_S4096x4096_S4x2048x4096_2_0_01_1_n_n.rhsNonContracting by decide)]
  rfl

/-- The contraction at (a, p, e): the sum over the contracted coordinate d of the activation at (a, p, d) times the weight at (d, e). -/
theorem dot_apply (x : FVec Ideal S4x2048x4096 .f32) (w : FVec Ideal S4096x4096 .f32) (a : Fin 4) (p : Fin 2048) (e : Fin 4096) :
    Host.dotGeneral (F := Ideal) dot_S4x2048x4096_S4096x4096_S4x2048x4096_2_0_01_1_n_n none x w (ix3 a p e)
      = ∑ d : Fin 4096, x (ix3 a p d) * w (ix2 d e) := by
  show FloatOps.dotGeneral (F := Ideal) dot_S4x2048x4096_S4096x4096_S4x2048x4096_2_0_01_1_n_n none .single x w (ix3 a p e) = _
  rw [Ideal.dotGeneral_apply,
    ← Equiv.sum_comp (contrEquiv1 dot_S4x2048x4096_S4096x4096_S4x2048x4096_2_0_01_1_n_n 4096 rfl rfl).symm]
  refine Finset.sum_congr rfl fun d _ => ?_
  have hk := contrEquiv1_symm_val dot_S4x2048x4096_S4096x4096_S4x2048x4096_2_0_01_1_n_n 4096 rfl rfl d
  have hl : dot_S4x2048x4096_S4096x4096_S4x2048x4096_2_0_01_1_n_n.lhsIdx (ix3 a p e)
      ((contrEquiv1 dot_S4x2048x4096_S4096x4096_S4x2048x4096_2_0_01_1_n_n 4096 rfl rfl).symm d) = ix3 a p d := by
    funext b
    apply Fin.ext
    match b with
    | ⟨0, _⟩ => exact lhs_dot_0 _ _
    | ⟨1, _⟩ => exact lhs_dot_1 _ _
    | ⟨2, _⟩ => exact (DotDims.lhsIdx_val_of_single _ (cl := (2 : Fin S4x2048x4096.rank)) rfl _ _).trans hk
  have hr : dot_S4x2048x4096_S4096x4096_S4x2048x4096_2_0_01_1_n_n.rhsIdx (ix3 a p e)
      ((contrEquiv1 dot_S4x2048x4096_S4096x4096_S4x2048x4096_2_0_01_1_n_n 4096 rfl rfl).symm d) = ix2 d e := by
    funext b
    apply Fin.ext
    match b with
    | ⟨0, _⟩ => exact (DotDims.rhsIdx_val_of_single _ (cr := (0 : Fin S4096x4096.rank)) rfl _ _).trans hk
    | ⟨1, _⟩ => exact rhs_dot_1 _ _
  rw [hl, hr]

/-! ## The result -/

/-- The bias at column e, whatever the batch and the position. -/
theorem bias_apply (b : FVec Ideal S4096 .f32) (a : Fin 4) (p : Fin 2048) (e : Fin 4096) :
    broadcastInDim S4x2048x4096 ![0, 1, 2] bcast_S1x1x4096_S4x2048x4096_0_1_2
      (broadcastInDim S1x1x4096 ![2] bcast_S4096_S1x1x4096_2 b) (ix3 a p e) = b (ix1 e) := by
  refine (broadcastInDim_apply _ _ _ (ix3 a p e) (ix3 (0 : Fin 1) (0 : Fin 1) e) fun c => ?_).trans ?_
  · match c with
    | ⟨0, _⟩ => exact (if_pos rfl).symm
    | ⟨1, _⟩ => exact (if_pos rfl).symm
    | ⟨2, _⟩ => exact (if_neg (show ¬ (4096 : ℕ) = 1 by decide)).symm
  · refine broadcastInDim_apply _ _ _ (ix3 (0 : Fin 1) (0 : Fin 1) e) (ix1 e) fun c => ?_
    match c with
    | ⟨0, _⟩ => exact (if_neg (show ¬ (4096 : ℕ) = 1 by decide)).symm

/-- The reference's term at the ideal instance, element by element, is the specification. -/
theorem res_apply (x : FVec Ideal S4x2048x4096 .f32) (q : IVec S8388608 32) (s : FVec Ideal S262144 .f32) (b : FVec Ideal S4096 .f32)
    (a : Fin 4) (p : Fin 2048) (e : Fin 4096) :
    res (F := Ideal) x q s b (ix3 a p e) = Cert.Spec.Gat x q s b a p e := by
  unfold res
  rw [addf_apply, dot_apply, bias_apply]
  unfold Cert.Spec.Gat
  simp only [wmat_apply]

/-- Every weakly fair execution of the reference's @main at the ideal instance terminates with the result at
    `Cert.Spec.G` of the launch contents of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v25) : S4x2048x4096.Idx → EReal)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2⟩) (run (F := Ideal) m ρ)
  exact (congrArg (res (F := Ideal) (m ((c.tc : Thread nD τ).loc main_arg0)) (m ((c.tc : Thread nD τ).loc main_arg1))
      (m ((c.tc : Thread nD τ).loc main_arg2)) (m ((c.tc : Thread nD τ).loc main_arg3))) (eq_ix3 i)).trans
    (res_apply (m ((c.tc : Thread nD τ).loc main_arg0)) (m ((c.tc : Thread nD τ).loc main_arg1))
      (m ((c.tc : Thread nD τ).loc main_arg2)) (m ((c.tc : Thread nD τ).loc main_arg3)) (i 0) (i 1) (i 2))

end Cert.ReferenceIdeal.Hand

end
-- ==== Proof.lean ====
/-
  The certificate of the 4-bit dequantization fused with a matrix product, against its plain reference.

  The kernel program reshapes its arguments, runs a dequantization call (each packed word's two 4-bit codes looked up
  among the sixteen NF4 levels by a binary tree of selects on the code's bits, interleaved, and multiplied by the
  scale of the run of 64 weights the column falls in, that scale broadcast by a contraction with a 0/1 matrix), runs
  a matrix-product call tiled 32×8 (an accumulator cleared at the first contraction tile, added to at every tile,
  stored with the bias at the last), and reshapes the product. The reference gathers the levels from a table,
  multiplies by the scales, and contracts with the activations in one product before adding the bias.

  At the ideal instance both results are, at batch a, position p and feature e,
      Σ_d x[a,p,d] · level(code(d,e)) · scale(64·d + e/64) + bias[e]
  (`Cert.Spec.G`): the select tree and the table agree on every code below 16, a zero-one contraction picks its one
  term, and a sum over eight tiles of 512 is the sum over 4096 — sums of extended reals regroup freely, so the
  precondition is not used. The frames hold at any float instance: the kernel program's is read off its run as four
  segments, the reference's off its run as a list of host operations.
-/
import proofs.«402447_j56581899157525_3_alg».proof.Defs
import proofs.«402447_j56581899157525_3_alg».proof.Proof.Gen.Kernel
import proofs.«402447_j56581899157525_3_alg».proof.Proof.Gen.KernelIdeal
import proofs.«402447_j56581899157525_3_alg».proof.Proof.Gen.ReferenceIdeal
import proofs.«402447_j56581899157525_3_alg».proof.Proof.Gen.Pre_finite_inputs
import proofs.«402447_j56581899157525_3_alg».proof.Proof.KB.Frame
import proofs.«402447_j56581899157525_3_alg».proof.Proof.KI.Result
import proofs.«402447_j56581899157525_3_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run (Cert.ReferenceIdeal.defs (F := Ideal)) _ _).mono (fun _ h c => (h c).2) (Cert.ReferenceIdeal.Hand.ref_run m ρ)

/-- From memories agreeing on the arguments both idealized programs end with the result at the specification of
    the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.result m ρ, ?_⟩
  refine (θ_run (Cert.ReferenceIdeal.defs (F := Ideal)) _ _).mono (fun _ h c => ⟨(h c).1.trans ?_, (h c).2⟩)
    (Cert.ReferenceIdeal.Hand.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
